-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x64x1024 : Shape := ⟨3, ![4, 64, 1024]⟩
abbrev S1024x16384 : Shape := ⟨2, ![1024, 16384]⟩
abbrev S1024x1024 : Shape := ⟨2, ![1024, 1024]⟩
abbrev S64x1024 : Shape := ⟨2, ![64, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x64x1024 : S_.BroadcastsInDim S4x64x1024 (![] : Fin 0 → Fin S4x64x1024.rank)
  reducesTo_S4x64x1024_S_d0_1_2 : S4x64x1024.ReducesTo [0, 1, 2] S_
  bcast_S_S1024x16384 : S_.BroadcastsInDim S1024x16384 (![] : Fin 0 → Fin S1024x16384.rank)
  reducesTo_S1024x16384_S_d0_1 : S1024x16384.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S64x1024 : S_.BroadcastsInDim S64x1024 (![] : Fin 0 → Fin S64x1024.rank)
  reducesTo_S64x1024_S_d0_1 : S64x1024.ReducesTo [0, 1] S_

variable [Facts]

def fn_part3 {F : FTy → Type} [FloatOps F] (main_v48 : IVec S_ 1) (main_v49 : FVec F S64x1024 .f32) (main_v50 : FVec F S64x1024 .f32) : IVec S_ 1 :=
  let main_v51 : IVec S64x1024 1 := cmpf .olt main_v49 main_v50
  let main_c_19 : IVec S_ 1 := constantI S_ 1 1#1
  let main_v52 : IVec S_ 1 := (fun x v => Host.reduce IntOp.andi x v reducesTo_S64x1024_S_d0_1 h_S_) main_v51 main_c_19
  let main_v53 : IVec S_ 1 := andi main_v48 main_v52
  main_v53

def fn_part2 {F : FTy → Type} [FloatOps F] (main_arg7 : FVec F S1024x1024 .f32) (main_arg8 : FVec F S1024x1024 .f32) (main_arg9 : FVec F S64x1024 .f32) (main_arg10 : FVec F S64x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S64x1024 .f32 := Host.absf main_arg9
  let main_cst_16 : FVec F S_ .f32 := constant S_ .f32 0x7F800000#32
  let main_v45 : FVec F S64x1024 .f32 := broadcastInDim S64x1024 ![] bcast_S_S64x1024 main_cst_16
  let main_v46 : IVec S64x1024 1 := cmpf .olt main_v44 main_v45
  let main_c_17 : IVec S_ 1 := constantI S_ 1 1#1
  let main_v47 : IVec S_ 1 := (fun x v => Host.reduce IntOp.andi x v reducesTo_S64x1024_S_d0_1 h_S_) main_v46 main_c_17
  let main_v48 : IVec S_ 1 := andi main_v43 main_v47
  let main_v49 : FVec F S64x1024 .f32 := Host.absf main_arg10
  let main_cst_18 : FVec F S_ .f32 := constant S_ .f32 0x7F800000#32
  let main_v50 : FVec F S64x1024 .f32 := broadcastInDim S64x1024 ![] bcast_S_S64x1024 main_cst_18
  fn_part3 (F := F) main_v48 main_v49 main_v50

def fn_part1 {F : FTy → Type} [FloatOps F] (main_arg4 : FVec F S1024x1024 .f32) (main_arg5 : FVec F S1024x1024 .f32) (main_arg6 : FVec F S64x1024 .f32) (main_arg7 : FVec F S1024x1024 .f32) (main_arg8 : FVec F S1024x1024 .f32) (main_arg9 : FVec F S64x1024 .f32) (main_arg10 : FVec F S64x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S64x1024 .f32 := Host.absf main_arg6
  let main_cst_10 : FVec F S_ .f32 := constant S_ .f32 0x7F800000#32
  let main_v30 : FVec F S64x1024 .f32 := broadcastInDim S64x1024 ![] bcast_S_S64x1024 main_cst_10
  let main_v31 : IVec S64x1024 1 := cmpf .olt main_v29 main_v30
  let main_c_11 : IVec S_ 1 := constantI S_ 1 1#1
  let main_v32 : IVec S_ 1 := (fun x v => Host.reduce IntOp.andi x v reducesTo_S64x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4x4096x1024 .f32) (main_arg1 : FVec F S4x64x1024 .f32) (main_arg2 : FVec F S1024x16384 .f32) (main_arg3 : FVec F S1024x1024 .f32) (main_arg4 : FVec F S1024x1024 .f32) (main_arg5 : FVec F S1024x1024 .f32) (main_arg6 : FVec F S64x1024 .f32) (main_arg7 : FVec F S1024x1024 .f32) (main_arg8 : FVec F S1024x1024 .f32) (main_arg9 : FVec F S64x1024 .f32) (main_arg10 : FVec F S64x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x64x1024 .f32 := Host.absf main_arg1
  let main_cst_0 : FVec F S_ .f32 := constant S_ .f32 0x7F800000#32
  let main_v5 : FVec F S4x64x1024 .f32 := broadcastInDim S4x64x1024 ![] bcast_S_S4x64x1024 main_cst_0
  let main_v6 : IVec S4x64x1024 1 := cmpf .olt main_v4 main_v5
  let main_c_1 : IVec S_ 1 := constantI S_ 1 1#1
  let main_v7 : IVec S_ 1 := (fun x v => Host.reduce IntOp.andi x v reducesTo_S4x64x1024_S_d0_1_2 h_S_) main_v6 main_c_1
  let main_v8 : IVec S_ 1 := andi main_v3 main_v7
  let main_v9 : FVec F S1024x16384 .f32 := Host.absf main_arg2
  let main_cst_2 : FVec F S_ .f32 := constant S_ .f32 0x7F800000#32
  let main_v10 : FVec F S1024x16384 .f32 := broadcastInDim S1024x16384 ![] bcast_S_S1024x16384 main_cst_2
  let main_v11 : IVec S1024x16384 1 := cmpf .olt main_v9 main_v10
  let main_c_3 : IVec S_ 1 := constantI S_ 1 1#1
  let main_v12 : IVec S_ 1 := (fun x v => Host.reduce IntOp.andi x v reducesTo_S1024x16384_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x4096x1024 : Shape := ⟨3, ![4, 4096, 1024]⟩
abbrev S4x64x1024 : Shape := ⟨3, ![4, 64, 1024]⟩
abbrev S1024x16384 : Shape := ⟨2, ![1024, 16384]⟩
abbrev S1024x1024 : Shape := ⟨2, ![1024, 1024]⟩
abbrev S64x1024 : Shape := ⟨2, ![64, 1024]⟩
abbrev S4x512x8192 : Shape := ⟨3, ![4, 512, 8192]⟩
abbrev S1x512x8192 : Shape := ⟨3, ![1, 512, 8192]⟩
abbrev S1x64x1024 : Shape := ⟨3, ![1, 64, 1024]⟩
abbrev S512x8192 : Shape := ⟨2, ![512, 8192]⟩
abbrev S1024x8192 : Shape := ⟨2, ![1024, 8192]⟩
abbrev S512x1024 : Shape := ⟨2, ![512, 1024]⟩
abbrev S511x8192 : Shape := ⟨2, ![511, 8192]⟩
abbrev S511x1024 : Shape := ⟨2, ![511, 1024]⟩
abbrev S1x1024 : Shape := ⟨2, ![1, 1024]⟩
abbrev S64x512 : Shape := ⟨2, ![64, 512]⟩
abbrev S64 : Shape := ⟨1, ![64]⟩
abbrev S64x1 : Shape := ⟨2, ![64, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 17
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x64x1024, .f32⟩
  | .hbm, ⟨2, _⟩ => ⟨S1024x16384, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S64x1024, .f32⟩
  | .hbm, ⟨7, _⟩ => ⟨S1024x1024, .f32⟩
  | .hbm, ⟨8, _⟩ => ⟨S1024x1024, .f32⟩
  | .hbm, ⟨9, _⟩ => ⟨S64x1024, .f32⟩
  | .hbm, ⟨10, _⟩ => ⟨S64x1024, .f32⟩
  | .hbm, ⟨11, _⟩ => ⟨S4x4096x1024, .bf16⟩
  | .hbm, ⟨12, _⟩ => ⟨S4x512x8192, .bf16⟩
  | .hbm, ⟨13, _⟩ => ⟨S1024x16384, .bf16⟩
  | .hbm, ⟨14, _⟩ => ⟨S1024x1024, .bf16⟩
  | .hbm, ⟨15, _⟩ => ⟨S1024x1024, .bf16⟩
  | .hbm, ⟨16, _⟩ => ⟨S4x64x1024, .f32⟩
  | .local _ .vmem, ⟨0, _⟩ => ⟨S1x512x8192, .bf16⟩
  | .local _ .vmem, ⟨1, _⟩ => ⟨S1024x16384, .bf16⟩
  | .local _ .vmem, ⟨2, _⟩ => ⟨S1024x1024, .bf16⟩
  | .local _ .vmem, ⟨3, _⟩ => ⟨S1024x1024, .bf16⟩
  | .local _ .vmem, ⟨4, _⟩ => ⟨S64x1024, .f32⟩
  | .local _ .vmem, ⟨5, _⟩ => ⟨S1x64x1024, .f32⟩
  | .local _ .vmem, ⟨6, _⟩ => ⟨S1x64x1024, .f32⟩
  | .local _ .vmem, ⟨7, _⟩ => ⟨S64x1024, .f32⟩
  | .local _ .vmem, ⟨8, _⟩ => ⟨S64x1024, .f32⟩
  | .local _ .vmem, ⟨9, _⟩ => ⟨S1x64x1024, .f32⟩
  | .local _ .vmem, ⟨10, _⟩ => ⟨S1x64x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S4x4096x1024_S4x512x8192 : S4x4096x1024.ShapeCasts S4x512x8192
  inb_S1x512x8192_S1x512x8192_0_0_0 : ∀ a, (![0, 0, 0] : Fin 3 → Nat) a + S1x512x8192.size a ≤ S1x512x8192.size a
  h_S1x512x8192 : 0 < S1x512x8192.numel
  shapeCasts_S1x512x8192_S512x8192 : S1x512x8192.ShapeCasts S512x8192
  inb_S1024x16384_S1024x8192_0_0 : ∀ a, (![0, 0] : Fin 2 → Nat) a + S1024x8192.size a ≤ S1024x16384.size a
  h_S1024x8192 : 0 < S1024x8192.numel
  shapeCasts_S1024x8192_S1024x8192 : S1024x8192.ShapeCasts S1024x8192
  inb_S1024x16384_S1024x8192_0_8192 : ∀ a, (![0, 8192] : Fin 2 → Nat) a + S1024x8192.size a ≤ S1024x16384.size a
  slices_S512x8192_o1_0_S511x8192 : S512x8192.Slices ![1, 0] S511x8192
  concatenates_S511x1024_S1x1024_S512x1024_d0 : Shape.Concatenates [S511x1024, S1x1024] S512x1024 0
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S64x1024_S64x1024_0_0 : ∀ a, (![0, 0] : Fin 2 → Nat) a + S64x1024.size a ≤ S64x1024.size a
  h_S64x1024 : 0 < S64x1024.numel
  reduces_S64x512_S64 : S64x512.Reduces [1] S64
  shapeCasts_S64_S64x1 : S64.ShapeCasts S64x1
  broadcasts_S64x1_S64x512 : S64x1.Broadcasts S64x512
  shapeCasts_S64x1024_S1x64x1024 : S64x1024.ShapeCasts S1x64x1024
  reduces_S1x64x1024_S1 : S1x64x1024.Reduces [1, 2] S1
  shapeCasts_S1_S1x1x1 : S1.ShapeCasts S1x1x1
  inpos_S1x1x1_p0_0_0 : ∀ a, (![0, 0, 0] : Fin 3 → Nat) a < S1x1x1.size a
  broadcasts_S1x1_S64x1024 : S1x1.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  dot_S512x8192_S1024x8192_S512x1024_1_1_0_0_n_n_wf : DotDims.WF S512x8192 S1024x8192 S512x1024 [1] [1] [0] [0] [] []
  dot_S511x8192_S1024x8192_S511x1024_1_1_0_0_n_n_wf : DotDims.WF S511x8192 S1024x8192 S511x1024 [1] [1] [0] [0] [] []
  dot_S512x1024_S1024x1024_S512x1024_1_1_0_0_n_n_wf : DotDims.WF S512x1024 S1024x1024 S512x1024 [1] [1] [0] [0] [] []
  dot_S64x1024_S512x1024_S64x512_1_1_0_0_n_n_wf : DotDims.WF S64x1024 S512x1024 S64x512 [1] [1] [0] [0] [] []
  dot_S64x512_S512x1024_S64x1024_1_0_0_1_n_n_wf : DotDims.WF S64x512 S512x1024 S64x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512x8192.size a ≤ S4x512x8192.size a
  hwx0_0 : ∀ i : grid0.Coords, EltTy.bits .bf16 = 32 ∨ (Rect.block (s := S4x512x8192) S1x512x8192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x16384.size a ≤ S1024x16384.size a
  hwx0_1 : ∀ i : grid0.Coords, EltTy.bits .bf16 = 32 ∨ (Rect.block (s := S1024x16384) S1024x16384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x1024.size a
  hwx0_4 : ∀ i : grid0.Coords, EltTy.bits .f32 = 32 ∨ (Rect.block (s := S64x1024) S64x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1024.size a ≤ S4x64x1024.size a
  hwx0_5 : ∀ i : grid0.Coords, EltTy.bits .f32 = 32 ∨ (Rect.block (s := S4x64x1024) S1x64x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x1024.size a
  hwx0_6 : ∀ i : grid0.Coords, EltTy.bits .f32 = 32 ∨ (Rect.block (s := S64x1024) S64x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S64x1024.size a
  hwx0_7 : ∀ i : grid0.Coords, EltTy.bits .f32 = 32 ∨ (Rect.block (s := S64x1024) S64x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x1024.size a ≤ S4x64x1024.size a
  hwx0_8 : ∀ i : grid0.Coords, EltTy.bits .f32 = 32 ∨ (Rect.block (s := S4x64x1024) S1x64x1024.size (cc0_transform_8 i) (hinb0_8 i)).WholeWords (EltTy.packing .f32)

variable [Facts₀]

def dot_S512x8192_S1024x8192_S512x1024_1_1_0_0_n_n : DotDims S512x8192 S1024x8192 S512x1024 where
  lhsContracting := [1]
  rhsContracting := [1]
  lhsNonContracting := [0]
  rhsNonContracting := [0]
  lhsBatch := []
  rhsBatch := []
  wf := dot_S512x8192_S1024x8192_S512x1024_1_1_0_0_n_n_wf
def dot_S511x8192_S1024x8192_S511x1024_1_1_0_0_n_n : DotDims S511x8192 S1024x8192 S511x1024 where
  lhsContracting := [1]
  rhsContracting := [1]
  lhsNonContracting := [0]
  rhsNonContracting := [0]
  lhsBatch := []
  rhsBatch := []
  wf := dot_S511x8192_S1024x8192_S511x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S64x1024_S512x1024_S64x512_1_1_0_0_n_n : DotDims S64x1024 S512x1024 S64x512 where
  lhsContracting := [1]
  rhsContracting := [1]
  lhsNonContracting := [0]
  rhsNonContracting := [0]
  lhsBatch := []
  rhsBatch := []
  wf := dot_S64x1024_S512x1024_S64x512_1_1_0_0_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf

abbrev win0_0 : Pipeline.Window sig grid0 :=
  Pipeline.Window.ofSpec (Memref.whole main_v1) S1x512x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1x64x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S64x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S64x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x64x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4x64x1024 : Shape := ⟨3, ![4, 64, 1024]⟩
abbrev S1024x16384 : Shape := ⟨2, ![1024, 16384]⟩
abbrev S1024x1024 : Shape := ⟨2, ![1024, 1024]⟩
abbrev S64x1024 : Shape := ⟨2, ![64, 1024]⟩
abbrev S_ : Shape := ⟨0, ![]⟩
abbrev S4x4104x1024 : Shape := ⟨3, ![4, 4104, 1024]⟩
abbrev S512 : Shape := ⟨1, ![512]⟩
abbrev S512x1 : Shape := ⟨2, ![512, 1]⟩
abbrev S16 : Shape := ⟨1, ![16]⟩
abbrev S1x16 : Shape := ⟨2, ![1, 16]⟩
abbrev S512x16 : Shape := ⟨2, ![512, 16]⟩
abbrev S512x16x1 : Shape := ⟨3, ![512, 16, 1]⟩
abbrev S4x512x16x1024 : Shape := ⟨4, ![4, 512, 16, 1024]⟩
abbrev S4x512x16384 : Shape := ⟨3, ![4, 512, 16384]⟩
abbrev S4x512x1024 : Shape := ⟨3, ![4, 512, 1024]⟩
abbrev S4x512x512 : Shape := ⟨3, ![4, 512, 512]⟩
abbrev S4x512 : Shape := ⟨2, ![4, 512]⟩
abbrev S4x512x1 : Shape := ⟨3, ![4, 512, 1]⟩
abbrev S4x512x64 : Shape := ⟨3, ![4, 512, 64]⟩
abbrev S4x64x512 : Shape := ⟨3, ![4, 64, 512]⟩
abbrev S4x64 : Shape := ⟨2, ![4, 64]⟩
abbrev S4x64x1 : Shape := ⟨3, ![4, 64, 1]⟩
abbrev S4 : Shape := ⟨1, ![4]⟩
abbrev S4x1x1 : Shape := ⟨3, ![4, 1, 1]⟩
abbrev S1x64x1024 : Shape := ⟨3, ![1, 64, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x64x1024, .f32⟩
  | .hbm, ⟨2, _⟩ => ⟨S1024x16384, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S64x1024, .f32⟩
  | .hbm, ⟨7, _⟩ => ⟨S1024x1024, .f32⟩
  | .hbm, ⟨8, _⟩ => ⟨S1024x1024, .f32⟩
  | .hbm, ⟨9, _⟩ => ⟨S64x1024, .f32⟩
  | .hbm, ⟨10, _⟩ => ⟨S64x1024, .f32⟩
  | .hbm, ⟨11, _⟩ => ⟨S_, .i32⟩
  | .hbm, ⟨12, _⟩ => ⟨S_, .f32⟩
  | .hbm, ⟨13, _⟩ => ⟨S4x4104x1024, .f32⟩
  | .hbm, ⟨14, _⟩ => ⟨S512, .i32⟩
  | .hbm, ⟨15, _⟩ => ⟨S512x1, .i32⟩
  | .hbm, ⟨16, _⟩ => ⟨S_, .i32⟩
  | .hbm, ⟨17, _⟩ => ⟨S512x1, .i32⟩
  | .hbm, ⟨18, _⟩ => ⟨S512x1, .i32⟩
  | .hbm, ⟨19, _⟩ => ⟨S16, .i32⟩
  | .hbm, ⟨20, _⟩ => ⟨S1x16, .i32⟩
  | .hbm, ⟨21, _⟩ => ⟨S512x16, .i32⟩
  | .hbm, ⟨22, _⟩ => ⟨S512x16, .i32⟩
  | .hbm, ⟨23, _⟩ => ⟨S512x16, .i32⟩
  | .hbm, ⟨24, _⟩ => ⟨S_, .i32⟩
  | .hbm, ⟨25, _⟩ => ⟨S512x16, .i32⟩
  | .hbm, ⟨26, _⟩ => ⟨S512x16, .i1⟩
  | .hbm, ⟨27, _⟩ => ⟨S_, .i32⟩
  | .hbm, ⟨28, _⟩ => ⟨S512x16, .i32⟩
  | .hbm, ⟨29, _⟩ => ⟨S512x16, .i32⟩
  | .hbm, ⟨30, _⟩ => ⟨S512x16, .i32⟩
  | .hbm, ⟨31, _⟩ => ⟨S512x16x1, .i32⟩
  | .hbm, ⟨32, _⟩ => ⟨S4x512x16x1024, .f32⟩
  | .hbm, ⟨33, _⟩ => ⟨S4x512x16384, .f32⟩
  | .hbm, ⟨34, _⟩ => ⟨S4x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x512x1024, .f32⟩
  | .hbm, ⟨40, _⟩ => ⟨S4x512x1024, .f32⟩
  | .hbm, ⟨41, _⟩ => ⟨S4x512x1024, .f32⟩
  | .hbm, ⟨42, _⟩ => ⟨S4x512x512, .f32⟩
  | .hbm, ⟨43, _⟩ => ⟨S4x512x512, .f32⟩
  | .hbm, ⟨44, _⟩ => ⟨S4x512x512, .f32⟩
  | .hbm, ⟨45, _⟩ => ⟨S_, .f32⟩
  | .hbm, ⟨46, _⟩ => ⟨S4x512, .f32⟩
  | .hbm, ⟨47, _⟩ => ⟨S_, .f32⟩
  | .hbm, ⟨48, _⟩ => ⟨S4x512, .f32⟩
  | .hbm, ⟨49, _⟩ => ⟨S4x512, .f32⟩
  | .hbm, ⟨50, _⟩ => ⟨S4x512x1, .f32⟩
  | .hbm, ⟨51, _⟩ => ⟨S4x512x512, .f32⟩
  | .hbm, ⟨52, _⟩ => ⟨S4x512x512, .f32⟩
  | .hbm, ⟨53, _⟩ => ⟨S4x512x512, .f32⟩
  | .hbm, ⟨54, _⟩ => ⟨S_, .f32⟩
  | .hbm, ⟨55, _⟩ => ⟨S4x512, .f32⟩
  | .hbm, ⟨56, _⟩ => ⟨S4x512x1, .f32⟩
  | .hbm, ⟨57, _⟩ => ⟨S4x512x512, .f32⟩
  | .hbm, ⟨58, _⟩ => ⟨S4x512x512, .f32⟩
  | .hbm, ⟨59, _⟩ => ⟨S4x512x1024, .f32⟩
  | .hbm, ⟨60, _⟩ => ⟨S4x512x1024, .f32⟩
  | .hbm, ⟨61, _⟩ => ⟨S4x512x1024, .f32⟩
  | .hbm, ⟨62, _⟩ => ⟨S4x512x64, .f32⟩
  | .hbm, ⟨63, _⟩ => ⟨S4x64x512, .f32⟩
  | .hbm, ⟨64, _⟩ => ⟨S4x64x512, .f32⟩
  | .hbm, ⟨65, _⟩ => ⟨S4x64x512, .f32⟩
  | .hbm, ⟨66, _⟩ => ⟨S_, .f32⟩
  | .hbm, ⟨67, _⟩ => ⟨S4x64, .f32⟩
  | .hbm, ⟨68, _⟩ => ⟨S_, .f32⟩
  | .hbm, ⟨69, _⟩ => ⟨S4x64, .f32⟩
  | .hbm, ⟨70, _⟩ => ⟨S4x64, .f32⟩
  | .hbm, ⟨71, _⟩ => ⟨S4x64x1, .f32⟩
  | .hbm, ⟨72, _⟩ => ⟨S4x64x512, .f32⟩
  | .hbm, ⟨73, _⟩ => ⟨S4x64x512, .f32⟩
  | .hbm, ⟨74, _⟩ => ⟨S4x64x512, .f32⟩
  | .hbm, ⟨75, _⟩ => ⟨S_, .f32⟩
  | .hbm, ⟨76, _⟩ => ⟨S4x64, .f32⟩
  | .hbm, ⟨77, _⟩ => ⟨S4x64x1, .f32⟩
  | .hbm, ⟨78, _⟩ => ⟨S4x64x512, .f32⟩
  | .hbm, ⟨79, _⟩ => ⟨S4x64x512, .f32⟩
  | .hbm, ⟨80, _⟩ => ⟨S4x64x1024, .f32⟩
  | .hbm, ⟨81, _⟩ => ⟨S4x64x1024, .f32⟩
  | .hbm, ⟨82, _⟩ => ⟨S_, .f32⟩
  | .hbm, ⟨83, _⟩ => ⟨S4, .f32⟩
  | .hbm, ⟨84, _⟩ => ⟨S4x1x1, .f32⟩
  | .hbm, ⟨85, _⟩ => ⟨S_, .f32⟩
  | .hbm, ⟨86, _⟩ => ⟨S4x1x1, .f32⟩
  | .hbm, ⟨87, _⟩ => ⟨S4x1x1, .f32⟩
  | .hbm, ⟨88, _⟩ => ⟨S_, .f32⟩
  | .hbm, ⟨89, _⟩ => ⟨S4x1x1, .f32⟩
  | .hbm, ⟨90, _⟩ => ⟨S4x1x1, .f32⟩
  | .hbm, ⟨91, _⟩ => ⟨S4x1x1, .f32⟩
  | .hbm, ⟨92, _⟩ => ⟨S4x64x1024, .f32⟩
  | .hbm, ⟨93, _⟩ => ⟨S4x64x1024, .f32⟩
  | .hbm, ⟨94, _⟩ => ⟨S1x64x1024, .f32⟩
  | .hbm, ⟨95, _⟩ => ⟨S4x64x1024, .f32⟩
  | .hbm, ⟨96, _⟩ => ⟨S4x64x1024, .f32⟩
  | .hbm, ⟨97, _⟩ => ⟨S4x64x1024, .f32⟩
  | .hbm, ⟨98, _⟩ => ⟨S4x64x1024, .f32⟩
  | .hbm, ⟨99, _⟩ => ⟨S_, .f32⟩
  | .hbm, ⟨100, _⟩ => ⟨S4, .f32⟩
  | .hbm, ⟨101, _⟩ => ⟨S4x1x1, .f32⟩
  | .hbm, ⟨102, _⟩ => ⟨S_, .f32⟩
  | .hbm, ⟨103, _⟩ => ⟨S4x1x1, .f32⟩
  | .hbm, ⟨104, _⟩ => ⟨S4x1x1, .f32⟩
  | .hbm, ⟨105, _⟩ => ⟨S_, .f32⟩
  | .hbm, ⟨106, _⟩ => ⟨S4x1x1, .f32⟩
  | .hbm, ⟨107, _⟩ => ⟨S4x1x1, .f32⟩
  | .hbm, ⟨108, _⟩ => ⟨S4x1x1, .f32⟩
  | .hbm, ⟨109, _⟩ => ⟨S4x64x1024, .f32⟩
  | .hbm, ⟨110, _⟩ => ⟨S4x64x1024, .f32⟩
  | .hbm, ⟨111, _⟩ => ⟨S1x64x1024, .f32⟩
  | .hbm, ⟨112, _⟩ => ⟨S4x64x1024, .f32⟩
  | .hbm, ⟨113, _⟩ => ⟨S4x64x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  pads_S4x4096x1024_S4x4104x1024_000_080_000 : S4x4096x1024.Pads (![0, 0, 0] : Fin 3 → Nat) ![0, 8, 0] ![0, 0, 0] S4x4104x1024
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S16_S1x16_1 : S16.BroadcastsInDim S1x16 (![1] : Fin 1 → Fin S1x16.rank)
  bcast_S512x1_S512x16_0_1 : S512x1.BroadcastsInDim S512x16 (![0, 1] : Fin 2 → Fin S512x16.rank)
  bcast_S1x16_S512x16_0_1 : S1x16.BroadcastsInDim S512x16 (![0, 1] : Fin 2 → Fin S512x16.rank)
  bcast_S_S512x16 : S_.BroadcastsInDim S512x16 (![] : Fin 0 → Fin S512x16.rank)
  bcast_S512x16_S512x16x1_0_1 : S512x16.BroadcastsInDim S512x16x1 (![0, 1] : Fin 2 → Fin S512x16x1.rank)
  shapeCasts_S4x512x16x1024_S4x512x16384 : S4x512x16x1024.ShapeCasts S4x512x16384
  bcast_S_S4x512x512 : S_.BroadcastsInDim S4x512x512 (![] : Fin 0 → Fin S4x512x512.rank)
  reducesTo_S4x512x512_S4x512_d2 : S4x512x512.ReducesTo [2] S4x512
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x512_0_1_2 : S4x512x1.BroadcastsInDim S4x512x512 (![0, 1, 2] : Fin 3 → Fin S4x512x512.rank)
  transposes_S4x512x64_S4x64x512_0_2_1 : S4x512x64.Transposes [0, 2, 1] S4x64x512
  bcast_S_S4x64x512 : S_.BroadcastsInDim S4x64x512 (![] : Fin 0 → Fin S4x64x512.rank)
  reducesTo_S4x64x512_S4x64_d2 : S4x64x512.ReducesTo [2] S4x64
  bcast_S_S4x64 : S_.BroadcastsInDim S4x64 (![] : Fin 0 → Fin S4x64.rank)
  bcast_S4x64_S4x64x1_0_1 : S4x64.BroadcastsInDim S4x64x1 (![0, 1] : Fin 2 → Fin S4x64x1.rank)
  bcast_S4x64x1_S4x64x512_0_1_2 : S4x64x1.BroadcastsInDim S4x64x512 (![0, 1, 2] : Fin 3 → Fin S4x64x512.rank)
  reducesTo_S4x64x1024_S4_d1_2 : S4x64x1024.ReducesTo [1, 2] S4
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S4x1x1_S4x64x1024_0_1_2 : S4x1x1.BroadcastsInDim S4x64x1024 (![0, 1, 2] : Fin 3 → Fin S4x64x1024.rank)
  bcast_S64x1024_S1x64x1024_1_2 : S64x1024.BroadcastsInDim S1x64x1024 (![1, 2] : Fin 2 → Fin S1x64x1024.rank)
  bcast_S1x64x1024_S4x64x1024_0_1_2 : S1x64x1024.BroadcastsInDim S4x64x1024 (![0, 1, 2] : Fin 3 → Fin S4x64x1024.rank)
  gather_S4x4104x1024_S512x16x1_S4x512x16x1024_03_1_n_n_1_2_411024_wf : GatherDims.WF S4x4104x1024 S512x16x1 S4x512x16x1024 [0, 3] [1] [] [1] [] 2 ![4, 1, 1024]
  dot_S4x512x16384_S1024x16384_S4x512x1024_2_1_01_0_n_n_wf : DotDims.WF S4x512x16384 S1024x16384 S4x512x1024 [2] [1] [0, 1] [0] [] []
  dot_S4x512x1024_S1024x1024_S4x512x1024_2_1_01_0_n_n_wf : DotDims.WF S4x512x1024 S1024x1024 S4x512x1024 [2] [1] [0, 1] [0] [] []
  dot_S4x512x1024_S4x512x1024_S4x512x512_2_2_1_1_0_0_wf : DotDims.WF S4x512x1024 S4x512x1024 S4x512x512 [2] [2] [1] [1] [0] [0]
  dot_S4x512x512_S4x512x1024_S4x512x1024_2_1_1_2_0_0_wf : DotDims.WF S4x512x512 S4x512x1024 S4x512x1024 [2] [1] [1] [2] [0] [0]
  dot_S4x512x1024_S64x1024_S4x512x64_2_1_01_0_n_n_wf : DotDims.WF S4x512x1024 S64x1024 S4x512x64 [2] [1] [0, 1] [0] [] []
  dot_S4x64x512_S4x512x1024_S4x64x1024_2_1_1_2_0_0_wf : DotDims.WF S4x64x512 S4x512x1024 S4x64x1024 [2] [1] [1] [2] [0] [0]

variable [Facts₀]

def gather_S4x4104x1024_S512x16x1_S4x512x16x1024_03_1_n_n_1_2_411024 : GatherDims S4x4104x1024 S512x16x1 S4x512x16x1024 where
  offsetDims := [0, 3]
  collapsedSliceDims := [1]
  operandBatchingDims := []
  startIndicesBatchingDims := []
  startIndexMap := [1]
  indexVectorDim := 2
  sliceSizes := ![4, 1, 1024]
  wf := gather_S4x4104x1024_S512x16x1_S4x512x16x1024_03_1_n_n_1_2_411024_wf
def dot_S4x512x16384_S1024x16384_S4x512x1024_2_1_01_0_n_n : DotDims S4x512x16384 S1024x16384 S4x512x1024 where
  lhsContracting := [2]
  rhsContracting := [1]
  lhsNonContracting := [0, 1]
  rhsNonContracting := [0]
  lhsBatch := []
  rhsBatch := []
  wf := dot_S4x512x16384_S1024x16384_S4x512x1024_2_1_01_0_n_n_wf
def dot_S4x512x1024_S1024x1024_S4x512x1024_2_1_01_0_n_n : DotDims S4x512x1024 S1024x1024 S4x512x1024 where
  lhsContracting := [2]
  rhsContracting := [1]
  lhsNonContracting := [0, 1]
  rhsNonContracting := [0]
  lhsBatch := []
  rhsBatch := []
  wf := dot_S4x512x1024_S1024x1024_S4x512x1024_2_1_01_0_n_n_wf
def dot_S4x512x1024_S4x512x1024_S4x512x512_2_2_1_1_0_0 : DotDims S4x512x1024 S4x512x1024 S4x512x512 where
  lhsContracting := [2]
  rhsContracting := [2]
  lhsNonContracting := [1]
  rhsNonContracting := [1]
  lhsBatch := [0]
  rhsBatch := [0]
  wf := dot_S4x512x1024_S4x512x1024_S4x512x512_2_2_1_1_0_0_wf
def dot_S4x512x512_S4x512x1024_S4x512x1024_2_1_1_2_0_0 : DotDims S4x512x512 S4x512x1024 S4x512x1024 where
  lhsContracting := [2]
  rhsContracting := [1]
  lhsNonContracting := [1]
  rhsNonContracting := [2]
  lhsBatch := [0]
  rhsBatch := [0]
  wf := dot_S4x512x512_S4x512x1024_S4x512x1024_2_1_1_2_0_0_wf
def dot_S4x512x1024_S64x1024_S4x512x64_2_1_01_0_n_n : DotDims S4x512x1024 S64x1024 S4x512x64 where
  lhsContracting := [2]
  rhsContracting := [1]
  lhsNonContracting := [0, 1]
  rhsNonContracting := [0]
  lhsBatch := []
  rhsBatch := []
  wf := dot_S4x512x1024_S64x1024_S4x512x64_2_1_01_0_n_n_wf
def dot_S4x64x512_S4x512x1024_S4x64x1024_2_1_1_2_0_0 : DotDims S4x64x512 S4x512x1024 S4x64x1024 where
  lhsContracting := [2]
  rhsContracting := [1]
  lhsNonContracting := [1]
  rhsNonContracting := [2]
  lhsBatch := [0]
  rhsBatch := [0]
  wf := dot_S4x64x512_S4x512x1024_S4x64x1024_2_1_1_2_0_0_wf

class Facts : Prop extends Facts₀ where

variable [Facts]
-- ==== Proof.Spec.lean ====
/-
  The function both programs compute, for one batch element, over the extended reals. Arrays are functions of
  their coordinates.

  * `win x n f`: entry `f` of window `n` of the sequence `x`: the window is rows `8n … 8n+15` laid side by side
    (row `8n + f / 1024`, column `f % 1024`); rows at or past 4096 read zero.
  * `summ`: the window contracted with a weight row: `S[n, m] = ∑ f, win[n, f] · W[m, f]`.
  * `summK`: the same contraction split at the window's middle. The first half is row `n` of the sequence viewed as
    512 rows of 8192 entries; the second half is row `n + 1` of that view, and is absent for the last window.
  * `proj`, `score`, `soft`, `mem`: a projection `S · Wᵀ`; the scaled scores `(Q · Kᵀ) · 2⁻⁵`; the softmax along a
    row, taken as `exp (a - max) / ∑ exp (a - max)` with the maximum folded from −∞; the weighted sum `P · V`.
  * `rms A w`: `A · rsqrt (mean A² + ε) · w`, the mean over all 64 · 1024 entries.
-/
import Idealize.ShloMosaic.PureOps.Ideal

noncomputable section

open scoped BigOperators

namespace Cert.Spec

open Idealize.ShloMosaic

/-- −∞, as the word both programs print. -/
abbrev NI : EReal := Ideal.ofBits .f32 0xFF800000#32
/-- ε = 2⁻²³. -/
abbrev EPS : EReal := Ideal.ofBits .f32 0x34000000#32
/-- The number of entries of a 64 × 1024 array, 65536. -/
abbrev CNT : EReal := Ideal.ofBits .f32 0x47800000#32
/-- The scale 2⁻⁵ = 1 / √1024. -/
abbrev SCL : EReal := Ideal.ofBits .f32 0x3D000000#32

/-- Entry `f` of window `n`: row `8n + f / 1024`, column `f % 1024` of the sequence, zero past its end. -/
def win (x : Fin 4096 → Fin 1024 → EReal) (n : Fin 512) (f : Fin 16384) : EReal :=
  if h : 8 * n.val + f.val / 1024 < 4096 then x ⟨8 * n.val + f.val / 1024, h⟩ ⟨f.val % 1024, Nat.mod_lt _ (by decide)⟩ else 0

/-- The window summary: `S[n, m] = ∑ f, win[n, f] · W[m, f]`. -/
def summ (x : Fin 4096 → Fin 1024 → EReal) (W : Fin 1024 → Fin 16384 → EReal) (n : Fin 512) (m : Fin 1024) : EReal :=
  ∑ f : Fin 16384, win x n f * W m f

/-- The sequence as 512 rows of 8192 entries: entry `j` of row `n` is row `8n + j / 1024`, column `j % 1024`. -/
def flat (x : Fin 4096 → Fin 1024 → EReal) (n : Fin 512) (j : Fin 8192) : EReal :=
  x ⟨8 * n.val + j.val / 1024, by have := n.isLt; have := j.isLt; omega⟩ ⟨j.val % 1024, Nat.mod_lt _ (by decide)⟩

/-- The summary split at the window's middle: row `n` against the weights' first half, plus row `n + 1` against
    their second half where there is a row `n + 1`. -/
def summK (X : Fin 512 → Fin 8192 → EReal) (W1 W2 : Fin 1024 → Fin 8192 → EReal) (n : Fin 512) (m : Fin 1024) : EReal :=
  (∑ j : Fin 8192, X n j * W1 m j) + (if h : n.val + 1 < 512 then ∑ j : Fin 8192, X ⟨n.val + 1, h⟩ j * W2 m j else 0)

/-- A projection: `(S · Wpᵀ)[n, h] = ∑ k, S[n, k] · Wp[h, k]`. -/
def proj (S : Fin 512 → Fin 1024 → EReal) (Wp : Fin 1024 → Fin 1024 → EReal) (n : Fin 512) (h : Fin 1024) : EReal :=
  ∑ k : Fin 1024, S n k * Wp h k

/-- The scaled scores: `((Q · Kᵀ) · 2⁻⁵)[q, n]`. -/
def score (Q : Fin 64 → Fin 1024 → EReal) (K : Fin 512 → Fin 1024 → EReal) (q : Fin 64) (n : Fin 512) : EReal :=
  (∑ h : Fin 1024, Q q h * K n h) * SCL

/-- A row's maximum, folded from −∞ (and once more against −∞, as both programs do). -/
def rowmax (A : Fin 64 → Fin 512 → EReal) (q : Fin 64) : EReal :=
  max NI ((Finset.univ : Finset (Fin 512)).fold max NI (A q))

/-- The softmax along a row. -/
def soft (A : Fin 64 → Fin 512 → EReal) (q : Fin 64) (n : Fin 512) : EReal :=
  Ideal.div (Ideal.exp (A q n - rowmax A q)) (∑ n' : Fin 512, Ideal.exp (A q n' - rowmax A q))

/-- The weighted sum `(P · V)[q, h] = ∑ n, P[q, n] · V[n, h]`. -/
def mem (P : Fin 64 → Fin 512 → EReal) (V : Fin 512 → Fin 1024 → EReal) (q : Fin 64) (h : Fin 1024) : EReal :=
  ∑ n : Fin 512, P q n * V n h

/-- `A · rsqrt (mean A² + ε) · w`, the mean over every entry. -/
def rms (A w : Fin 64 → Fin 1024 → EReal) (q : Fin 64) (h : Fin 1024) : EReal :=
  A q h * Ideal.rsqrt (Ideal.div (∑ q' : Fin 64, ∑ h' : Fin 1024, A q' h' * A q' h') CNT + EPS) * w q h

/-- The memory read out of a summary `S`: the softmax of the scaled scores of `Q` against `S · Wkᵀ`, applied to `S · Wvᵀ`. -/
def memOf (S : Fin 512 → Fin 1024 → EReal) (Wk Wv : Fin 1024 → Fin 1024 → EReal) (Q : Fin 64 → Fin 1024 → EReal) :
    Fin 64 → Fin 1024 → EReal :=
  mem (soft (score Q (proj S Wk))) (proj S Wv)

/-- The update: `rms (hh + rms M mn) hn`. -/
def upd (M hh mn hn : Fin 64 → Fin 1024 → EReal) : Fin 64 → Fin 1024 → EReal :=
  rms (fun q h => hh q h + rms M mn q h) hn

/-- The whole result for one batch element. -/
def out (x : Fin 4096 → Fin 1024 → EReal) (hh : Fin 64 → Fin 1024 → EReal) (W : Fin 1024 → Fin 16384 → EReal)
    (Wk Wv : Fin 1024 → Fin 1024 → EReal) (Q mn hn : Fin 64 → Fin 1024 → EReal) : Fin 64 → Fin 1024 → EReal :=
  upd (memOf (summ x W) Wk Wv Q) hh mn hn

end Cert.Spec

end
-- ==== Proof.Whole.lean ====
/-
  The result as one function of the eight argument arrays it depends on: entry `(b, q, h)` is `Spec.out` of batch
  element `b`'s sequence and carried state and of the six weight arrays.
-/
import proofs.«424976_j2362232013133_4_alg».proof.Proof.Spec
import Idealize.ShloMosaic.Lib.ValueIdx

noncomputable section

namespace Cert.Spec

open Idealize.ShloMosaic Idealize.ShloMosaic.ValueIdx

/-- The whole result array. `a0` is the sequences, `a1` the carried states, `a2` the summary weights, `a7` / `a8` the
    key / value weights, `a6` the queries, `a9` / `a10` the two normalisations' weights. -/
def whole (a0 : (⟨3, ![4, 4096, 1024]⟩ : Shape).Idx → EReal) (a1 : (⟨3, ![4, 64, 1024]⟩ : Shape).Idx → EReal)
    (a2 : (⟨2, ![1024, 16384]⟩ : Shape).Idx → EReal) (a7 a8 : (⟨2, ![1024, 1024]⟩ : Shape).Idx → EReal)
    (a6 a9 a10 : (⟨2, ![64, 1024]⟩ : Shape).Idx → EReal) : (⟨3, ![4, 64, 1024]⟩ : Shape).Idx → EReal :=
  fun i => out (fun r d => a0 (ix3 (⟨(i 0).val, (i 0).isLt⟩ : Fin 4) r d)) (fun q h => a1 (ix3 (⟨(i 0).val, (i 0).isLt⟩ : Fin 4) q h))
    (fun m f => a2 (ix2 m f)) (fun h k => a7 (ix2 h k)) (fun h k => a8 (ix2 h k)) (fun q h => a6 (ix2 q h))
    (fun q h => a9 (ix2 q h)) (fun q h => a10 (ix2 q h)) (⟨(i 1).val, (i 1).isLt⟩ : Fin 64) (⟨(i 2).val, (i 2).isLt⟩ : Fin 1024)

/-- At an index given by its coordinates. -/
theorem whole_apply (a0 : (⟨3, ![4, 4096, 1024]⟩ : Shape).Idx → EReal) (a1 : (⟨3, ![4, 64, 1024]⟩ : Shape).Idx → EReal)
    (a2 : (⟨2, ![1024, 16384]⟩ : Shape).Idx → EReal) (a7 a8 : (⟨2, ![1024, 1024]⟩ : Shape).Idx → EReal)
    (a6 a9 a10 : (⟨2, ![64, 1024]⟩ : Shape).Idx → EReal) (b : Fin 4) (q : Fin 64) (h : Fin 1024) :
    whole a0 a1 a2 a7 a8 a6 a9 a10 (ix3 b q h)
      = out (fun r d => a0 (ix3 b r d)) (fun q h => a1 (ix3 b q h)) (fun m f => a2 (ix2 m f)) (fun h k => a7 (ix2 h k))
          (fun h k => a8 (ix2 h k)) (fun q h => a6 (ix2 q h)) (fun q h => a9 (ix2 q h)) (fun q h => a10 (ix2 q h)) q h := rfl

end Cert.Spec

end
-- ==== Proof.SpecLaw.lean ====
/-
  The contraction over a window's 16384 entries splits at its middle: the first 8192 entries are a row of the sequence
  viewed as 512 rows of 8192, the last 8192 are the next such row, and for the last window they lie past the sequence's
  end, where the window reads zero.
-/
import proofs.«424976_j2362232013133_4_alg».proof.Proof.Spec
import Mathlib.Algebra.BigOperators.Fin

noncomputable section

open scoped BigOperators

namespace Cert.Spec

/-- Two reads of the sequence at coordinates with equal values agree. -/
private theorem read_congr (x : Fin 4096 → Fin 1024 → EReal) {a a' : Fin 4096} {b b' : Fin 1024}
    (ha : a.val = a'.val) (hb : b.val = b'.val) : x a b = x a' b' := by
  rw [Fin.ext ha, Fin.ext hb]

/-- In its first half a window reads row `n` of the 512 × 8192 view: `8n + j / 1024 ≤ 4095` always holds there. -/
private theorem win_lo (x : Fin 4096 → Fin 1024 → EReal) (n : Fin 512) (j : Fin 8192) (h : j.val < 16384) :
    win x n ⟨j.val, h⟩ = flat x n j := by
  have hc : 8 * n.val + j.val / 1024 < 4096 := by have := n.isLt; have := j.isLt; omega
  unfold win flat
  rw [dif_pos hc]

/-- In its second half a window that is not the last reads row `n + 1` of the view:
    `(8192 + j) / 1024 = 8 + j / 1024` and `(8192 + j) % 1024 = j % 1024`. -/
private theorem win_hi (x : Fin 4096 → Fin 1024 → EReal) (n : Fin 512) (j : Fin 8192) (h : 8192 + j.val < 16384)
    (hn : n.val + 1 < 512) : win x n ⟨8192 + j.val, h⟩ = flat x ⟨n.val + 1, hn⟩ j := by
  have hj := j.isLt
  have hc : 8 * n.val + (8192 + j.val) / 1024 < 4096 := by omega
  unfold win flat
  rw [dif_pos hc]
  exact read_congr x (by show 8 * n.val + (8192 + j.val) / 1024 = 8 * (n.val + 1) + j.val / 1024; omega)
    (by show (8192 + j.val) % 1024 = j.val % 1024; omega)

/-- The second half of the last window lies past the sequence's end and reads zero. -/
private theorem win_hi_zero (x : Fin 4096 → Fin 1024 → EReal) (n : Fin 512) (j : Fin 8192) (h : 8192 + j.val < 16384)
    (hn : ¬ n.val + 1 < 512) : win x n ⟨8192 + j.val, h⟩ = 0 := by
  have hj := j.isLt
  have hc : ¬ 8 * n.val + (8192 + j.val) / 1024 < 4096 := by omega
  unfold win
  rw [dif_neg hc]

/-- The split contraction over the sequence's 512 × 8192 view and the two halves of the weights is the window summary. -/
theorem summK_flat (x : Fin 4096 → Fin 1024 → EReal) (W : Fin 1024 → Fin 16384 → EReal) (n : Fin 512) (m : Fin 1024) :
    summK (flat x) (fun m j => W m ⟨j.val, by have := j.isLt; omega⟩) (fun m j => W m ⟨8192 + j.val, by have := j.isLt; omega⟩) n m
      = summ x W n m := by
  unfold summK summ
  -- the sum over 16384 = 8192 + 8192 entries is the sum over the first 8192 plus the sum over the last 8192
  have key := Fin.sum_univ_add (a := 8192) (b := 8192) (fun f : Fin 16384 => win x n f * W m f)
  refine Eq.trans ?_ key.symm
  refine congrArg₂ (fun a b : EReal => a + b) ?_ ?_
  · refine Finset.sum_congr rfl (fun j _ => ?_)
    show _ = win x n ⟨j.val, _⟩ * W m ⟨j.val, _⟩
    rw [win_lo x n j]
  · by_cases hn : n.val + 1 < 512
    · rw [dif_pos hn]
      refine Finset.sum_congr rfl (fun j _ => ?_)
      show _ = win x n ⟨8192 + j.val, _⟩ * W m ⟨8192 + j.val, _⟩
      rw [win_hi x n j _ hn]
    · rw [dif_neg hn]
      refine (Finset.sum_eq_zero (fun j _ => ?_)).symm
      show win x n ⟨8192 + j.val, _⟩ * W m ⟨8192 + j.val, _⟩ = 0
      rw [win_hi_zero x n j _ hn, zero_mul]

end Cert.Spec

end
-- ==== Proof.KerSumm.lean ====
/-
  The kernel's window summary, read at an entry: the product of the block's row with the weights' first half, plus
  the product of the next row with their second half, a zero row standing in after the last one.
-/
import proofs.«424976_j2362232013133_4_alg».proof.Proof.Gen.KernelIdeal.Skeleton
import proofs.«424976_j2362232013133_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerSumm

open Idealize.ShloMosaic Idealize.ShloMosaic.TcCoe Idealize.ShloMosaic.ValueIdx Cert.KernelIdeal Cert.KernelIdeal.Gen

/-! ## The two products at an entry -/

theorem lhs_a_0 (i : S512x1024.Idx) (q : dot_S512x8192_S1024x8192_S512x1024_1_1_0_0_n_n.contr.Idx) :
    (dot_S512x8192_S1024x8192_S512x1024_1_1_0_0_n_n.lhsIdx i q 0).val = (i 0).val := by
  unfold DotDims.lhsIdx
  rw [dif_neg (show ¬(0 : Fin S512x8192.rank) ∈ dot_S512x8192_S1024x8192_S512x1024_1_1_0_0_n_n.lhsBatch by decide), dif_pos (show (0 : Fin S512x8192.rank) ∈ dot_S512x8192_S1024x8192_S512x1024_1_1_0_0_n_n.lhsNonContracting by decide)]
  rfl
theorem lhs_a_1 (i : S512x1024.Idx) (q : dot_S512x8192_S1024x8192_S512x1024_1_1_0_0_n_n.contr.Idx) :
    (dot_S512x8192_S1024x8192_S512x1024_1_1_0_0_n_n.lhsIdx i q 1).val = (q ⟨0, by decide⟩).val :=
  dot_S512x8192_S1024x8192_S512x1024_1_1_0_0_n_n.lhsIdx_val_of_single rfl i q
theorem rhs_a_0 (i : S512x1024.Idx) (q : dot_S512x8192_S1024x8192_S512x1024_1_1_0_0_n_n.contr.Idx) :
    (dot_S512x8192_S1024x8192_S512x1024_1_1_0_0_n_n.rhsIdx i q 0).val = (i 1).val := by
  unfold DotDims.rhsIdx
  rw [dif_neg (show ¬(0 : Fin S1024x8192.rank) ∈ dot_S512x8192_S1024x8192_S512x1024_1_1_0_0_n_n.rhsBatch by decide), dif_pos (show (0 : Fin S1024x8192.rank) ∈ dot_S512x8192_S1024x8192_S512x1024_1_1_0_0_n_n.rhsNonContracting by decide)]
  rfl
theorem rhs_a_1 (i : S512x1024.Idx) (q : dot_S512x8192_S1024x8192_S512x1024_1_1_0_0_n_n.contr.Idx) :
    (dot_S512x8192_S1024x8192_S512x1024_1_1_0_0_n_n.rhsIdx i q 1).val = (q ⟨0, by decide⟩).val :=
  dot_S512x8192_S1024x8192_S512x1024_1_1_0_0_n_n.rhsIdx_val_of_single rfl i q

/-- A product into the zero accumulator, read at `(r, m)`: the sum over the 8192 shared entries of row `r` of the left
    operand against row `m` of the right one. -/
theorem mm_a_apply (a : FVec Ideal S512x8192 .bf16) (b : FVec Ideal S1024x8192 .bf16) (r : Fin 512) (m : Fin 1024) :
    matmul dot_S512x8192_S1024x8192_S512x1024_1_1_0_0_n_n none a b (constant (F := Ideal) S512x1024 .f32 0x00000000#32) (ix2 r m)
      = ∑ k : Fin 8192, a (ix2 r k) * b (ix2 m k) := by
  refine (Ideal.matmul_constant_zero_apply dot_S512x8192_S1024x8192_S512x1024_1_1_0_0_n_n none a b (ix2 r m)).trans ?_
  rw [← Equiv.sum_comp (ValueIdx.contrEquiv1 dot_S512x8192_S1024x8192_S512x1024_1_1_0_0_n_n 8192 rfl rfl).symm]
  refine Finset.sum_congr rfl fun k _ => ?_
  have hk := ValueIdx.contrEquiv1_symm_val dot_S512x8192_S1024x8192_S512x1024_1_1_0_0_n_n 8192 rfl rfl k
  have el : dot_S512x8192_S1024x8192_S512x1024_1_1_0_0_n_n.lhsIdx (ix2 r m) ((ValueIdx.contrEquiv1 dot_S512x8192_S1024x8192_S512x1024_1_1_0_0_n_n 8192 rfl rfl).symm k) = ix2 r k := funext fun ax => Fin.ext (by
    match ax with
    | ⟨0, _⟩ => exact lhs_a_0 _ _
    | ⟨1, _⟩ => exact (lhs_a_1 _ _).trans hk)
  have er : dot_S512x8192_S1024x8192_S512x1024_1_1_0_0_n_n.rhsIdx (ix2 r m) ((ValueIdx.contrEquiv1 dot_S512x8192_S1024x8192_S512x1024_1_1_0_0_n_n 8192 rfl rfl).symm k) = ix2 m k := funext fun ax => Fin.ext (by
    match ax with
    | ⟨0, _⟩ => exact rhs_a_0 _ _
    | ⟨1, _⟩ => exact (rhs_a_1 _ _).trans hk)
  rw [el, er]

theorem lhs_b_0 (i : S511x1024.Idx) (q : dot_S511x8192_S1024x8192_S511x1024_1_1_0_0_n_n.contr.Idx) :
    (dot_S511x8192_S1024x8192_S511x1024_1_1_0_0_n_n.lhsIdx i q 0).val = (i 0).val := by
  unfold DotDims.lhsIdx
  rw [dif_neg (show ¬(0 : Fin S511x8192.rank) ∈ dot_S511x8192_S1024x8192_S511x1024_1_1_0_0_n_n.lhsBatch by decide), dif_pos (show (0 : Fin S511x8192.rank) ∈ dot_S511x8192_S1024x8192_S511x1024_1_1_0_0_n_n.lhsNonContracting by decide)]
  rfl
theorem lhs_b_1 (i : S511x1024.Idx) (q : dot_S511x8192_S1024x8192_S511x1024_1_1_0_0_n_n.contr.Idx) :
    (dot_S511x8192_S1024x8192_S511x1024_1_1_0_0_n_n.lhsIdx i q 1).val = (q ⟨0, by decide⟩).val :=
  dot_S511x8192_S1024x8192_S511x1024_1_1_0_0_n_n.lhsIdx_val_of_single rfl i q
theorem rhs_b_0 (i : S511x1024.Idx) (q : dot_S511x8192_S1024x8192_S511x1024_1_1_0_0_n_n.contr.Idx) :
    (dot_S511x8192_S1024x8192_S511x1024_1_1_0_0_n_n.rhsIdx i q 0).val = (i 1).val := by
  unfold DotDims.rhsIdx
  rw [dif_neg (show ¬(0 : Fin S1024x8192.rank) ∈ dot_S511x8192_S1024x8192_S511x1024_1_1_0_0_n_n.rhsBatch by decide), dif_pos (show (0 : Fin S1024x8192.rank) ∈ dot_S511x8192_S1024x8192_S511x1024_1_1_0_0_n_n.rhsNonContracting by decide)]
  rfl
theorem rhs_b_1 (i : S511x1024.Idx) (q : dot_S511x8192_S1024x8192_S511x1024_1_1_0_0_n_n.contr.Idx) :
    (dot_S511x8192_S1024x8192_S511x1024_1_1_0_0_n_n.rhsIdx i q 1).val = (q ⟨0, by decide⟩).val :=
  dot_S511x8192_S1024x8192_S511x1024_1_1_0_0_n_n.rhsIdx_val_of_single rfl i q

/-- A product into the zero accumulator, read at `(r, m)`: the sum over the 8192 shared entries of row `r` of the left
    operand against row `m` of the right one. -/
theorem mm_b_apply (a : FVec Ideal S511x8192 .bf16) (b : FVec Ideal S1024x8192 .bf16) (r : Fin 511) (m : Fin 1024) :
    matmul dot_S511x8192_S1024x8192_S511x1024_1_1_0_0_n_n none a b (constant (F := Ideal) S511x1024 .f32 0x00000000#32) (ix2 r m)
      = ∑ k : Fin 8192, a (ix2 r k) * b (ix2 m k) := by
  refine (Ideal.matmul_constant_zero_apply dot_S511x8192_S1024x8192_S511x1024_1_1_0_0_n_n none a b (ix2 r m)).trans ?_
  rw [← Equiv.sum_comp (ValueIdx.contrEquiv1 dot_S511x8192_S1024x8192_S511x1024_1_1_0_0_n_n 8192 rfl rfl).symm]
  refine Finset.sum_congr rfl fun k _ => ?_
  have hk := ValueIdx.contrEquiv1_symm_val dot_S511x8192_S1024x8192_S511x1024_1_1_0_0_n_n 8192 rfl rfl k
  have el : dot_S511x8192_S1024x8192_S511x1024_1_1_0_0_n_n.lhsIdx (ix2 r m) ((ValueIdx.contrEquiv1 dot_S511x8192_S1024x8192_S511x1024_1_1_0_0_n_n 8192 rfl rfl).symm k) = ix2 r k := funext fun ax => Fin.ext (by
    match ax with
    | ⟨0, _⟩ => exact lhs_b_0 _ _
    | ⟨1, _⟩ => exact (lhs_b_1 _ _).trans hk)
  have er : dot_S511x8192_S1024x8192_S511x1024_1_1_0_0_n_n.rhsIdx (ix2 r m) ((ValueIdx.contrEquiv1 dot_S511x8192_S1024x8192_S511x1024_1_1_0_0_n_n 8192 rfl rfl).symm k) = ix2 m k := funext fun ax => Fin.ext (by
    match ax with
    | ⟨0, _⟩ => exact rhs_b_0 _ _
    | ⟨1, _⟩ => exact (rhs_b_1 _ _).trans hk)
  rw [el, er]

/-! ## The shifted product, a zero row after it -/

/-- The second product stacked over one zero row, read at `(n, m)` while there is a row `n + 1`: the product's entry
    `(n, m)`. -/
theorem cat_apply_lt (y : FVec Ideal S511x1024 .f32) (n : Fin 512) (m : Fin 1024) (h : n.val + 1 < 512) :
    concatenate S512x1024 0 [⟨S511x1024, y⟩, ⟨S1x1024, broadcast S1x1024 (Scalar.sitofp (F := Ideal) .f32 0#32)⟩]
        concatenates_S511x1024_S1x1024_S512x1024_d0 (ix2 n m)
      = y (ix2 ⟨n.val, by omega⟩ m) := by
  refine concatenate_pair_apply_left (0 : Fin S512x1024.rank) y _ concatenates_S511x1024_S1x1024_S512x1024_d0 (ix2 n m) rfl
    (ix2 ⟨n.val, by omega⟩ m) (fun b => ?_)
  match b with
  | ⟨0, _⟩ => rfl
  | ⟨1, _⟩ => rfl

/-- In the last row it reads the zero row: the integer word `0` converted is the real `0`. -/
theorem cat_apply_last (y : FVec Ideal S511x1024 .f32) (n : Fin 512) (m : Fin 1024) (h : ¬ n.val + 1 < 512) :
    concatenate S512x1024 0 [⟨S511x1024, y⟩, ⟨S1x1024, broadcast S1x1024 (Scalar.sitofp (F := Ideal) .f32 0#32)⟩]
        concatenates_S511x1024_S1x1024_S512x1024_d0 (ix2 n m)
      = 0 := by
  refine (concatenate_pair_apply_right (0 : Fin S512x1024.rank) y _ concatenates_S511x1024_S1x1024_S512x1024_d0 (ix2 n m) rfl rfl
    (ix2 (0 : Fin 1) m) (fun b hb => ?_) ?_).trans ?_
  · match b with
    | ⟨0, _⟩ => exact absurd rfl hb
    | ⟨1, _⟩ => rfl
  · show (0 : Nat) + 511 = n.val
    have := n.isLt
    omega
  · show ((((0#32 : BitVec 32).toInt : ℝ) : EReal)) = 0
    simp

/-! ## The split contraction, by cases on the last row -/

theorem summK_of_lt (X : Fin 512 → Fin 8192 → EReal) (W1 W2 : Fin 1024 → Fin 8192 → EReal) (n : Fin 512) (m : Fin 1024)
    (h : n.val + 1 < 512) :
    Cert.Spec.summK X W1 W2 n m = (∑ j : Fin 8192, X n j * W1 m j) + ∑ j : Fin 8192, X ⟨n.val + 1, h⟩ j * W2 m j := by
  unfold Cert.Spec.summK
  rw [dif_pos h]

theorem summK_of_last (X : Fin 512 → Fin 8192 → EReal) (W1 W2 : Fin 1024 → Fin 8192 → EReal) (n : Fin 512) (m : Fin 1024)
    (h : ¬ n.val + 1 < 512) :
    Cert.Spec.summK X W1 W2 n m = (∑ j : Fin 8192, X n j * W1 m j) + 0 := by
  unfold Cert.Spec.summK
  rw [dif_neg h]

/-- Entry `(n, m)` of the summary the kernel computes from its sequence block `v0` and the two halves `v2`, `v4` of the
    weights is the split contraction `Spec.summK`. -/
theorem pay2_apply (v0 : Vec Ideal S1x512x8192 .bf16) (v2 v4 : Vec Ideal S1024x8192 .bf16) (n : Fin 512) (m : Fin 1024) :
    k0_pay2 (F := Ideal) v0 v2 v4 (ix2 n m)
      = Cert.Spec.summK (fun n j => v0 (ix3 0 n j)) (fun m j => v2 (ix2 m j)) (fun m j => v4 (ix2 m j)) n m := by
  unfold k0_pay2
  -- the narrowing is the identity and the sum reads entry by entry
  refine (truncf_apply (φ := .f32) (ψ := .bf16) _ bitsLt_bf16_f32 (ix2 n m)).trans ?_
  refine (addf_apply _ _ (ix2 n m)).trans ?_
  -- the block cast to 512 × 8192 reads the block at (0, ·, ·); the weights' casts are identities
  have e1 : ∀ k : Fin 8192,
      shapeCast S512x8192 v0 shapeCasts_S1x512x8192_S512x8192 (ix2 n k) * shapeCast S1024x8192 v2 shapeCasts_S1024x8192_S1024x8192 (ix2 m k)
        = v0 (ix3 0 n k) * v2 (ix2 m k) := fun k =>
    congrArg₂ (fun a b : EReal => a * b) (shapeCast_1ab_ab_apply v0 _ n k) (congrFun (shapeCast_self v2 _) (ix2 m k))
  by_cases h : n.val + 1 < 512
  · refine (congrArg₂ (fun a b : EReal => a + b) (mm_a_apply _ _ n m) (cat_apply_lt _ n m h)).trans ?_
    refine Eq.trans ?_ (summK_of_lt (fun n j => v0 (ix3 0 n j)) (fun m j => v2 (ix2 m j)) (fun m j => v4 (ix2 m j)) n m h).symm
    refine congrArg₂ (fun a b : EReal => a + b) (Finset.sum_congr rfl fun k _ => e1 k)
      ((mm_b_apply _ _ ⟨n.val, by omega⟩ m).trans (Finset.sum_congr rfl fun k _ => ?_))
    -- row n of the slice from row 1 is row n + 1 of the block
    exact congrArg₂ (fun a b : EReal => a * b)
      ((slice2_axis0_apply 1 _ slices_S512x8192_o1_0_S511x8192 ⟨n.val, by omega⟩ k ⟨n.val + 1, h⟩ (Nat.add_comm _ _)).trans
        (shapeCast_1ab_ab_apply v0 _ ⟨n.val + 1, h⟩ k))
      (congrFun (shapeCast_self v4 _) (ix2 m k))
  · refine (congrArg₂ (fun a b : EReal => a + b) (mm_a_apply _ _ n m) (cat_apply_last _ n m h)).trans ?_
    refine Eq.trans ?_ (summK_of_last (fun n j => v0 (ix3 0 n j)) (fun m j => v2 (ix2 m j)) (fun m j => v4 (ix2 m j)) n m h).symm
    exact congrArg₂ (fun a b : EReal => a + b) (Finset.sum_congr rfl fun k _ => e1 k) rfl

end Cert.KernelIdeal.KerSumm

end
-- ==== Proof.KerSoft.lean ====
/-
  The kernel's two projections of the summary and its softmax of the scaled scores, read at an entry.
-/
import proofs.«424976_j2362232013133_4_alg».proof.Proof.Gen.KernelIdeal.Skeleton
import proofs.«424976_j2362232013133_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerSoft

open Idealize.ShloMosaic Idealize.ShloMosaic.TcCoe Idealize.ShloMosaic.ValueIdx Cert.KernelIdeal Cert.KernelIdeal.Gen

/-! ## The two contractions read at an entry

Both contract axis 1 of each operand: the left operand's index at entry `(i, j)` and contraction position `k` is
`(i, k)`, the right operand's is `(j, k)`. -/

/-- Summary against a weight: the left index keeps the entry's row on axis 0 … -/
theorem lhs_sw_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- … and reads the contraction position on axis 1; -/
theorem lhs_sw_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- the right index keeps the entry's column on axis 0 … -/
theorem rhs_sw_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- … and reads the contraction position on axis 1. -/
theorem rhs_sw_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The summary contracted with a weight (the weight first cast to its own shape), into the zero splat:
    entry `(n, h)` is `∑ k, S[n, k] · W[h, k]`. -/
theorem sw_apply (S : FVec Ideal S512x1024 .bf16) (W : FVec Ideal S1024x1024 .bf16) (n : Fin 512) (h : Fin 1024) :
    matmul dot_S512x1024_S1024x1024_S512x1024_1_1_0_0_n_n none S (shapeCast S1024x1024 W shapeCasts_S1024x1024_S1024x1024)
        (constant S512x1024 .f32 0x00000000#32) (ix2 n h)
      = ∑ k : Fin 1024, S (ix2 n k) * W (ix2 h k) := by
  rw [shapeCast_self]
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 n h) ((contrEquiv1 dot_S512x1024_S1024x1024_S512x1024_1_1_0_0_n_n 1024 rfl rfl).symm k) = ix2 n k := funext fun a => Fin.ext (by
    match a with
    | ⟨0, _⟩ => exact lhs_sw_0 _ _
    | ⟨1, _⟩ => exact (lhs_sw_1 _ _).trans hk)
  have er : dot_S512x1024_S1024x1024_S512x1024_1_1_0_0_n_n.rhsIdx (ix2 n h) ((contrEquiv1 dot_S512x1024_S1024x1024_S512x1024_1_1_0_0_n_n 1024 rfl rfl).symm k) = ix2 h k := funext fun a => Fin.ext (by
    match a with
    | ⟨0, _⟩ => exact rhs_sw_0 _ _
    | ⟨1, _⟩ => exact (rhs_sw_1 _ _).trans hk)
  rw [el, er]

/-- The queries against the key projection: the left index keeps the entry's row on axis 0 … -/
theorem lhs_qk_0 (i : S64x512.Idx) (q : dot_S64x1024_S512x1024_S64x512_1_1_0_0_n_n.contr.Idx) :
    (dot_S64x1024_S512x1024_S64x512_1_1_0_0_n_n.lhsIdx i q 0).val = (i 0).val := by
  unfold DotDims.lhsIdx
  rw [dif_neg (show ¬(0 : Fin S64x1024.rank) ∈ dot_S64x1024_S512x1024_S64x512_1_1_0_0_n_n.lhsBatch by decide), dif_pos (show (0 : Fin S64x1024.rank) ∈ dot_S64x1024_S512x1024_S64x512_1_1_0_0_n_n.lhsNonContracting by decide)]
  rfl
/-- … and reads the contraction position on axis 1; -/
theorem lhs_qk_1 (i : S64x512.Idx) (q : dot_S64x1024_S512x1024_S64x512_1_1_0_0_n_n.contr.Idx) :
    (dot_S64x1024_S512x1024_S64x512_1_1_0_0_n_n.lhsIdx i q 1).val = (q ⟨0, by decide⟩).val :=
  dot_S64x1024_S512x1024_S64x512_1_1_0_0_n_n.lhsIdx_val_of_single rfl i q
/-- the right index keeps the entry's column on axis 0 … -/
theorem rhs_qk_0 (i : S64x512.Idx) (q : dot_S64x1024_S512x1024_S64x512_1_1_0_0_n_n.contr.Idx) :
    (dot_S64x1024_S512x1024_S64x512_1_1_0_0_n_n.rhsIdx i q 0).val = (i 1).val := by
  unfold DotDims.rhsIdx
  rw [dif_neg (show ¬(0 : Fin S512x1024.rank) ∈ dot_S64x1024_S512x1024_S64x512_1_1_0_0_n_n.rhsBatch by decide), dif_pos (show (0 : Fin S512x1024.rank) ∈ dot_S64x1024_S512x1024_S64x512_1_1_0_0_n_n.rhsNonContracting by decide)]
  rfl
/-- … and reads the contraction position on axis 1. -/
theorem rhs_qk_1 (i : S64x512.Idx) (q : dot_S64x1024_S512x1024_S64x512_1_1_0_0_n_n.contr.Idx) :
    (dot_S64x1024_S512x1024_S64x512_1_1_0_0_n_n.rhsIdx i q 1).val = (q ⟨0, by decide⟩).val :=
  dot_S64x1024_S512x1024_S64x512_1_1_0_0_n_n.rhsIdx_val_of_single rfl i q

/-- The queries contracted with the keys into the zero splat: entry `(q, n)` is `∑ h, Q[q, h] · K[n, h]`. -/
theorem qk_apply (Q : FVec Ideal S64x1024 .f32) (K : FVec Ideal S512x1024 .f32) (q : Fin 64) (n : Fin 512) :
    matmul dot_S64x1024_S512x1024_S64x512_1_1_0_0_n_n (some .fp32) Q K (constant S64x512 .f32 0x00000000#32) (ix2 q n)
      = ∑ h : Fin 1024, Q (ix2 q h) * K (ix2 n h) := by
  simp only [matmul]
  rw [Ideal.matmul_constant_zero_apply, ← Equiv.sum_comp (contrEquiv1 dot_S64x1024_S512x1024_S64x512_1_1_0_0_n_n 1024 rfl rfl).symm]
  refine Finset.sum_congr rfl fun k _ => ?_
  have hk := contrEquiv1_symm_val dot_S64x1024_S512x1024_S64x512_1_1_0_0_n_n 1024 rfl rfl k
  have el : dot_S64x1024_S512x1024_S64x512_1_1_0_0_n_n.lhsIdx (ix2 q n) ((contrEquiv1 dot_S64x1024_S512x1024_S64x512_1_1_0_0_n_n 1024 rfl rfl).symm k) = ix2 q k := funext fun a => Fin.ext (by
    match a with
    | ⟨0, _⟩ => exact lhs_qk_0 _ _
    | ⟨1, _⟩ => exact (lhs_qk_1 _ _).trans hk)
  have er : dot_S64x1024_S512x1024_S64x512_1_1_0_0_n_n.rhsIdx (ix2 q n) ((contrEquiv1 dot_S64x1024_S512x1024_S64x512_1_1_0_0_n_n 1024 rfl rfl).symm k) = ix2 n k := funext fun a => Fin.ext (by
    match a with
    | ⟨0, _⟩ => exact rhs_qk_0 _ _
    | ⟨1, _⟩ => exact (rhs_qk_1 _ _).trans hk)
  rw [el, er]

/-! ## The row reductions and the column broadcast -/

/-- Over a row index `q`, the source index with `k` inserted on the reduced axis is `(q, k)`. -/
theorem lift_row (q : Fin 64) (k : Fin 512) : reduces_S64x512_S64.lift (ix1 q) k = ix2 q k :=
  funext fun a => Fin.ext (by
    match a with
    | ⟨0, _⟩ => rfl
    | ⟨1, _⟩ => rfl)

/-- A row's maximum reduction from −∞ is the fold of `max` from −∞ over the row. -/
theorem rowmax_apply (A : FVec Ideal S64x512 .f32) (q : Fin 64) :
    multiReduction .maximumf [1] S64 A 0xFF800000#32 reduces_S64x512_S64 (.inl rfl) rfl (ix1 q)
      = (Finset.univ : Finset (Fin 512)).fold max Cert.Spec.NI (fun n => A (ix2 q n)) := by
  refine (Ideal.multiReduction_maximumf_single A _ reduces_S64x512_S64 (.inl rfl) rfl (ix1 q)).trans ?_
  have hf : (A ∘ reduces_S64x512_S64.lift (ix1 q)) = fun n : Fin 512 => A (ix2 q n) :=
    funext fun k => congrArg A (lift_row q k)
  exact congrArg (fun f => (Finset.univ : Finset (Fin 512)).fold max Cert.Spec.NI f) hf

/-- A row's sum reduction is the sum over the row. -/
theorem rowsum_apply (A : FVec Ideal S64x512 .f32) (q : Fin 64) :
    multiReduction .add [1] S64 A 0x00000000#32 reduces_S64x512_S64 (.inl rfl) rfl (ix1 q)
      = ∑ n : Fin 512, A (ix2 q n) := by
  refine (Ideal.multiReduction_add_single A _ reduces_S64x512_S64 (.inl rfl) rfl (ix1 q)).trans ?_
  exact Finset.sum_congr rfl fun k _ => congrArg A (lift_row q k)

/-- A vector of row values cast to a column and broadcast along the rows reads, at `(q, n)`, the value of row `q`. -/
theorem col_apply {α : Type} (v : S64.Idx → α) (q : Fin 64) (n : Fin 512) :
    broadcastTo S64x512 (shapeCast S64x1 v shapeCasts_S64_S64x1) broadcasts_S64x1_S64x512 (ix2 q n) = v (ix1 q) := by
  refine (broadcastTo_apply _ broadcasts_S64x1_S64x512 (ix2 q n) (ix2 q (0 : Fin 1)) fun a => ?_).trans ?_
  · match a with
    | ⟨0, _⟩ => rfl
    | ⟨1, _⟩ => rfl
  · exact shapeCast_apply v shapeCasts_S64_S64x1 (ix2 q (0 : Fin 1)) (ix1 q) (by
      rw [Shape.rowMajor_val_one, Shape.rowMajor_val_two]
      show q.val = q.val * 1 + 0
      omega)

/-! ## The kernel's softmax as a function of the scores -/

/-- The row maximum (taken once more against −∞), as a column broadcast along the rows. -/
def rowMaxB (A : FVec Ideal S64x512 .f32) : FVec Ideal S64x512 .f32 :=
  broadcastTo S64x512 (shapeCast S64x1 (maximumf (broadcast S64 (Scalar.ofBits .f32 0xFF800000#32))
    (multiReduction .maximumf [1] S64 A 0xFF800000#32 reduces_S64x512_S64 (.inl rfl) rfl)) shapeCasts_S64_S64x1) broadcasts_S64x1_S64x512

/-- The exponential of the scores less their row maximum. -/
def expB (A : FVec Ideal S64x512 .f32) : FVec Ideal S64x512 .f32 := exp (subf A (rowMaxB A))

/-- The exponentials over their row sums. -/
def softB (A : FVec Ideal S64x512 .f32) : FVec Ideal S64x512 .f32 :=
  divf (expB A) (broadcastTo S64x512 (shapeCast S64x1
    (multiReduction .add [1] S64 (expB A) 0x00000000#32 reduces_S64x512_S64 (.inl rfl) rfl) shapeCasts_S64_S64x1) broadcasts_S64x1_S64x512)

/-- The scaled scores of the queries against the key projection of a summary. -/
def scoreB (S : FVec Ideal S512x1024 .bf16) (W : FVec Ideal S1024x1024 .bf16) (Q : FVec Ideal S64x1024 .f32) : FVec Ideal S64x512 .f32 :=
  mulf (matmul dot_S64x1024_S512x1024_S64x512_1_1_0_0_n_n (some .fp32) Q
      (matmul dot_S512x1024_S1024x1024_S512x1024_1_1_0_0_n_n none S (shapeCast S1024x1024 W shapeCasts_S1024x1024_S1024x1024) (constant S512x1024 .f32 0x00000000#32))
      (constant S64x512 .f32 0x00000000#32))
    (broadcast S64x512 (Scalar.ofBits .f32 0x3D000000#32))

theorem rowMaxB_apply (A : FVec Ideal S64x512 .f32) (q : Fin 64) (n : Fin 512) :
    rowMaxB A (ix2 q n) = Cert.Spec.rowmax (fun q n => A (ix2 q n)) q := by
  unfold rowMaxB
  refine (col_apply _ q n).trans ?_
  exact congrArg (max Cert.Spec.NI) (rowmax_apply A q)

theorem expB_apply (A : FVec Ideal S64x512 .f32) (q : Fin 64) (n : Fin 512) :
    expB A (ix2 q n) = Ideal.exp (A (ix2 q n) - Cert.Spec.rowmax (fun q n => A (ix2 q n)) q) :=
  congrArg (fun m => Ideal.exp (A (ix2 q n) - m)) (rowMaxB_apply A q n)

theorem softB_apply (A : FVec Ideal S64x512 .f32) (q : Fin 64) (n : Fin 512) :
    softB A (ix2 q n) = Cert.Spec.soft (fun q n => A (ix2 q n)) q n := by
  unfold softB Cert.Spec.soft
  refine (divf_apply _ _ _).trans ?_
  rw [col_apply, rowsum_apply, expB_apply]
  exact congrArg (Ideal.div _) (Finset.sum_congr rfl fun k _ => expB_apply A q k)

theorem scoreB_apply (S : FVec Ideal S512x1024 .bf16) (W : FVec Ideal S1024x1024 .bf16) (Q : FVec Ideal S64x1024 .f32)
    (q : Fin 64) (n : Fin 512) :
    scoreB S W Q (ix2 q n)
      = Cert.Spec.score (fun q h => Q (ix2 q h)) (Cert.Spec.proj (fun n m => S (ix2 n m)) (fun h m => W (ix2 h m))) q n := by
  unfold scoreB Cert.Spec.score
  refine (mulf_apply _ _ _).trans ?_
  refine congrArg (· * Cert.Spec.SCL) ?_
  refine (qk_apply Q _ q n).trans ?_
  exact Finset.sum_congr rfl fun h _ => congrArg (Q (ix2 q h) * ·) (sw_apply S W n h)

/-- Entry `(n, h)` of the kernel's value projection is `Spec.proj` of the kernel's summary against `v17`. -/
theorem pay3_apply (v0 : Vec Ideal S1x512x8192 .bf16) (v2 v4 : Vec Ideal S1024x8192 .bf16) (v17 : Vec Ideal S1024x1024 .bf16)
    (n : Fin 512) (h : Fin 1024) :
    k0_pay3 (F := Ideal) v0 v2 v4 v17 (ix2 n h)
      = Cert.Spec.proj (fun n m => k0_pay2 (F := Ideal) v0 v2 v4 (ix2 n m)) (fun h m => v17 (ix2 h m)) n h := by
  unfold k0_pay3
  generalize k0_pay2 (F := Ideal) v0 v2 v4 = S
  exact sw_apply S v17 n h

/-- Entry `(q, n)` of the kernel's attention weights is the softmax of the scaled scores of `v20` against the key
    projection of the kernel's summary. -/
theorem pay4_apply (v0 : Vec Ideal S1x512x8192 .bf16) (v2 v4 : Vec Ideal S1024x8192 .bf16) (v14 : Vec Ideal S1024x1024 .bf16)
    (v20 : Vec Ideal S64x1024 .f32) (q : Fin 64) (n : Fin 512) :
    k0_pay4 (F := Ideal) v0 v2 v4 v14 v20 (ix2 q n)
      = Cert.Spec.soft (Cert.Spec.score (fun q h => v20 (ix2 q h))
          (Cert.Spec.proj (fun n m => k0_pay2 (F := Ideal) v0 v2 v4 (ix2 n m)) (fun h m => v14 (ix2 h m)))) q n := by
  unfold k0_pay4
  generalize k0_pay2 (F := Ideal) v0 v2 v4 = S
  refine (softB_apply (scoreB S v14 v20) q n).trans ?_
  exact congrArg (fun A => Cert.Spec.soft A q n) (funext fun q' => funext fun n' => scoreB_apply S v14 v20 q' n')

end Cert.KernelIdeal.KerSoft

end
-- ==== Proof.KerTail.lean ====
/-
  The kernel's last stretch, read at an entry: the weighted sum of the value projection, its normalisation, the
  addition to the carried state and the second normalisation.
-/
import proofs.«424976_j2362232013133_4_alg».proof.Proof.Gen.KernelIdeal.Skeleton
import proofs.«424976_j2362232013133_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerTail

open Idealize.ShloMosaic Idealize.ShloMosaic.TcCoe Idealize.ShloMosaic.ValueIdx Cert.KernelIdeal Cert.KernelIdeal.Gen

/-! ## A rank-3 index set with a leading unit axis is the product of its last two coordinate ranges -/

/-- An index of a `[1, a, b]` array is its last two coordinates: the first one can only be `0`. -/
def idxEquiv3u {n1 n2 : Nat} : (⟨3, ![1, n1, n2]⟩ : Shape).Idx ≃ Fin n1 × Fin n2 where
  toFun i := (i 1, i 2)
  invFun p := ix3 (0 : Fin 1) p.1 p.2
  left_inv i := by
    funext a
    match a with
    | ⟨0, _⟩ =>
      refine Fin.ext ?_
      have h0 : (i 0).val < 1 := (i 0).isLt
      show (0 : Nat) = (i 0).val
      omega
    | ⟨1, _⟩ => rfl
    | ⟨2, _⟩ => rfl
  right_inv _ := rfl

/-- So a sum over such an index set is the double sum over those two coordinates. -/
theorem sum_idx3u {M : Type*} [AddCommMonoid M] {n1 n2 : Nat} (f : (⟨3, ![1, n1, n2]⟩ : Shape).Idx → M) :
    ∑ i, f i = ∑ a : Fin n1, ∑ b : Fin n2, f (ix3 (0 : Fin 1) a b) := by
  rw [← Equiv.sum_comp (idxEquiv3u (n1 := n1) (n2 := n2)).symm f, Fintype.sum_prod_type]
  rfl

/-! ## The sum over every entry -/

/-- The reduction of a `[1, 64, 1024]` array over its last two axes into `[1]` is, at its one index, the sum over
    every entry, written as the double sum over rows and columns. -/
theorem total_eq (X : FVec Ideal S1x64x1024 .f32) :
    multiReduction .add [1, 2] S1 X 0x00000000#32 reduces_S1x64x1024_S1 (.inl rfl) rfl
      = fun _ => ∑ q : Fin 64, ∑ h : Fin 1024, X (ix3 (0 : Fin 1) q h) := by
  funext j
  refine (Ideal.multiReduction_add_total X 0x00000000#32 reduces_S1x64x1024_S1 (by decide) (.inl rfl) rfl j).trans ?_
  exact sum_idx3u X

/-! ## The normalisation -/

/-- `A · rsqrt (mean A² + ε) · w` as the kernel computes it: the square, the sum over every entry, the division by the
    number of entries, `ε` added, the reciprocal square root spread over the array, and the two products. -/
def norm (A w : FVec Ideal S64x1024 .f32) : FVec Ideal S64x1024 .f32 :=
  mulf (mulf A (broadcastTo S64x1024 (rsqrt (addf (divf (broadcast S1x1 (extractAt ![0, 0, 0] (shapeCast S1x1x1
    (multiReduction .add [1, 2] S1 (shapeCast S1x64x1024 (mulf A A) shapeCasts_S64x1024_S1x64x1024) 0x00000000#32
      reduces_S1x64x1024_S1 (.inl rfl) rfl) shapeCasts_S1_S1x1x1) inpos_S1x1x1_p0_0_0))
    (broadcast S1x1 (Scalar.ofBits .f32 0x47800000#32))) (broadcast S1x1 (Scalar.ofBits .f32 0x34000000#32))))
    broadcasts_S1x1_S64x1024)) w

/-- At entry `(q, h)` it is `Spec.rms`. -/
theorem norm_apply (A w : FVec Ideal S64x1024 .f32) (q : Fin 64) (h : Fin 1024) :
    norm A w (ix2 q h) = Cert.Spec.rms (fun q h => A (ix2 q h)) (fun q h => w (ix2 q h)) q h := by
  unfold norm
  rw [total_eq]
  have hS : (∑ q' : Fin 64, ∑ h' : Fin 1024,
        shapeCast S1x64x1024 (mulf A A) shapeCasts_S64x1024_S1x64x1024 (ix3 (0 : Fin 1) q' h'))
      = ∑ q' : Fin 64, ∑ h' : Fin 1024, A (ix2 q' h') * A (ix2 q' h') :=
    Finset.sum_congr rfl fun q' _ => Finset.sum_congr rfl fun h' _ =>
      shapeCast_ab_1ab_apply (mulf A A) shapeCasts_S64x1024_S1x64x1024 (0 : Fin 1) q' h'
  show A (ix2 q h) * Ideal.rsqrt (Ideal.div (∑ q' : Fin 64, ∑ h' : Fin 1024,
        shapeCast S1x64x1024 (mulf A A) shapeCasts_S64x1024_S1x64x1024 (ix3 (0 : Fin 1) q' h')) Cert.Spec.CNT + Cert.Spec.EPS)
      * w (ix2 q h) = _
  rw [hS]
  rfl

/-! ## The weighted sum -/

theorem lhs_mm_0 (i : S64x1024.Idx) (c : dot_S64x512_S512x1024_S64x1024_1_0_0_1_n_n.contr.Idx) :
    (dot_S64x512_S512x1024_S64x1024_1_0_0_1_n_n.lhsIdx i c 0).val = (i 0).val := by
  unfold DotDims.lhsIdx
  rw [dif_neg (show ¬(0 : Fin S64x512.rank) ∈ dot_S64x512_S512x1024_S64x1024_1_0_0_1_n_n.lhsBatch by decide), dif_pos (show (0 : Fin S64x512.rank) ∈ dot_S64x512_S512x1024_S64x1024_1_0_0_1_n_n.lhsNonContracting by decide)]
  rfl
theorem lhs_mm_1 (i : S64x1024.Idx) (c : dot_S64x512_S512x1024_S64x1024_1_0_0_1_n_n.contr.Idx) :
    (dot_S64x512_S512x1024_S64x1024_1_0_0_1_n_n.lhsIdx i c 1).val = (c ⟨0, by decide⟩).val :=
  dot_S64x512_S512x1024_S64x1024_1_0_0_1_n_n.lhsIdx_val_of_single rfl i c
theorem rhs_mm_0 (i : S64x1024.Idx) (c : dot_S64x512_S512x1024_S64x1024_1_0_0_1_n_n.contr.Idx) :
    (dot_S64x512_S512x1024_S64x1024_1_0_0_1_n_n.rhsIdx i c 0).val = (c ⟨0, by decide⟩).val :=
  dot_S64x512_S512x1024_S64x1024_1_0_0_1_n_n.rhsIdx_val_of_single rfl i c
theorem rhs_mm_1 (i : S64x1024.Idx) (c : dot_S64x512_S512x1024_S64x1024_1_0_0_1_n_n.contr.Idx) :
    (dot_S64x512_S512x1024_S64x1024_1_0_0_1_n_n.rhsIdx i c 1).val = (i 1).val := by
  unfold DotDims.rhsIdx
  rw [dif_neg (show ¬(1 : Fin S512x1024.rank) ∈ dot_S64x512_S512x1024_S64x1024_1_0_0_1_n_n.rhsBatch by decide), dif_pos (show (1 : Fin S512x1024.rank) ∈ dot_S64x512_S512x1024_S64x1024_1_0_0_1_n_n.rhsNonContracting by decide)]
  rfl

/-- The product of the `[64, 512]` weights with the `[512, 1024]` values, accumulated from zero, is at `(q, h)` the sum
    over the 512 positions of `weights[q, n] · values[n, h]`. -/
theorem mm_apply (P : FVec Ideal S64x512 .f32) (V : FVec Ideal S512x1024 .f32) (q : Fin 64) (h : Fin 1024) :
    matmul dot_S64x512_S512x1024_S64x1024_1_0_0_1_n_n (some .fp32) P V (constant S64x1024 .f32 0x00000000#32) (ix2 q h)
      = Cert.Spec.mem (fun q n => P (ix2 q n)) (fun n h => V (ix2 n h)) q h := by
  unfold Cert.Spec.mem
  simp only [matmul]
  rw [Ideal.matmul_constant_zero_apply, ← Equiv.sum_comp (contrEquiv1 dot_S64x512_S512x1024_S64x1024_1_0_0_1_n_n 512 rfl rfl).symm]
  refine Finset.sum_congr rfl fun k _ => ?_
  have hk := contrEquiv1_symm_val dot_S64x512_S512x1024_S64x1024_1_0_0_1_n_n 512 rfl rfl k
  have el : dot_S64x512_S512x1024_S64x1024_1_0_0_1_n_n.lhsIdx (ix2 q h) ((contrEquiv1 dot_S64x512_S512x1024_S64x1024_1_0_0_1_n_n 512 rfl rfl).symm k) = ix2 q k := funext fun a => Fin.ext (by
    match a with
    | ⟨0, _⟩ => exact lhs_mm_0 _ _
    | ⟨1, _⟩ => exact (lhs_mm_1 _ _).trans hk)
  have er : dot_S64x512_S512x1024_S64x1024_1_0_0_1_n_n.rhsIdx (ix2 q h) ((contrEquiv1 dot_S64x512_S512x1024_S64x1024_1_0_0_1_n_n 512 rfl rfl).symm k) = ix2 k h := funext fun a => Fin.ext (by
    match a with
    | ⟨0, _⟩ => exact (rhs_mm_0 _ _).trans hk
    | ⟨1, _⟩ => exact rhs_mm_1 _ _)
  rw [el, er]

/-! ## The whole stretch -/

/-- The stored block is the second normalisation, of the carried state plus the first normalisation of the weighted
    sum, with a leading unit axis put back. -/
theorem pay1_eq (v19 : FVec Ideal S512x1024 .f32) (v34 : FVec Ideal S64x512 .f32) (v49 : Vec Ideal S64x1024 .f32)
    (v51 : Vec Ideal S1x64x1024 .f32) (v67 : Vec Ideal S64x1024 .f32) :
    k0_pay1 (F := Ideal) v19 v34 (constant S64x1024 .f32 0x00000000#32) v49 v51 v67
      = shapeCast S1x64x1024 (norm (addf (shapeCast S64x1024 v51 shapeCasts_S1x64x1024_S64x1024)
          (norm (matmul dot_S64x512_S512x1024_S64x1024_1_0_0_1_n_n (some .fp32) v34 v19 (constant S64x1024 .f32 0x00000000#32)) v49)) v67)
          shapeCasts_S64x1024_S1x64x1024 := rfl

/-- Entry `(q, h)` of the block the kernel stores is `Spec.upd` of the weighted sum `v34 · v19`, the carried state `v51`
    and the two weight arrays `v49`, `v67`. -/
theorem pay1_apply (v19 : FVec Ideal S512x1024 .f32) (v34 : FVec Ideal S64x512 .f32) (v49 : Vec Ideal S64x1024 .f32)
    (v51 : Vec Ideal S1x64x1024 .f32) (v67 : Vec Ideal S64x1024 .f32) (q : Fin 64) (h : Fin 1024) :
    k0_pay1 (F := Ideal) v19 v34 (constant S64x1024 .f32 0x00000000#32) v49 v51 v67 (ix3 0 q h)
      = Cert.Spec.upd (Cert.Spec.mem (fun q n => v34 (ix2 q n)) (fun n h => v19 (ix2 n h))) (fun q h => v51 (ix3 0 q h))
          (fun q h => v49 (ix2 q h)) (fun q h => v67 (ix2 q h)) q h := by
  refine (congrFun (pay1_eq v19 v34 v49 v51 v67) (ix3 0 q h)).trans ?_
  refine (shapeCast_ab_1ab_apply _ shapeCasts_S64x1024_S1x64x1024 (0 : Fin 1) q h).trans ?_
  refine (norm_apply _ v67 q h).trans ?_
  unfold Cert.Spec.upd
  refine congrArg (fun B => Cert.Spec.rms B (fun q h => v67 (ix2 q h)) q h) ?_
  funext q' h'
  refine (addf_apply _ _ (ix2 q' h')).trans ?_
  refine congrArg₂ (· + ·) (shapeCast_1ab_ab_apply v51 shapeCasts_S1x64x1024_S64x1024 q' h') ?_
  refine (norm_apply _ v49 q' h').trans ?_
  refine congrArg (fun B => Cert.Spec.rms B (fun q h => v49 (ix2 q h)) q' h') ?_
  funext q'' h''
  exact mm_apply v34 v19 q'' h''

end Cert.KernelIdeal.KerTail

end
-- ==== Proof.KerVal.lean ====
/-
  The kernel's result array. At grid point `t` the body stores, into batch element `t`'s block of the output, the
  update `Spec.upd` of the memory read out of the split summary of its sequence block; the sequence block is row
  block `t` of the sequences viewed as 512 rows of 8192 entries, so the split summary is the window summary
  (`Spec.summK_flat`) and the block is batch element `t`'s block of `Spec.whole`. The four blocks tile the array.
-/
import proofs.«424976_j2362232013133_4_alg».proof.Proof.Gen.KernelIdeal.Value
import proofs.«424976_j2362232013133_4_alg».proof.Proof.Whole
import proofs.«424976_j2362232013133_4_alg».proof.Proof.SpecLaw
import proofs.«424976_j2362232013133_4_alg».proof.Proof.KerSumm
import proofs.«424976_j2362232013133_4_alg».proof.Proof.KerSoft
import proofs.«424976_j2362232013133_4_alg».proof.Proof.KerTail
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.KerVal

open Cert.KernelIdeal Cert.KernelIdeal.Gen Idealize.ShloMosaic Idealize.ShloMosaic.TcCoe Idealize.ShloMosaic.ValueIdx Idealize.SL.Sem
open Idealize.ShloMosaic.Pipeline (Dat)

/-! ## The block the body stores, from the blocks it loads -/

theorem hz3 : (![0, 0, 0] : Fin 3 → Nat) = fun _ => 0 := funext fun a => by fin_cases a <;> rfl
theorem hz2 : (![0, 0] : Fin 2 → Nat) = fun _ => 0 := funext fun a => by fin_cases a <;> rfl

/-- The load of the weights' first half reads columns `0 … 8191`. -/
theorem ld_first (x1 : Vec Ideal S1024x16384 .bf16) (mm : Fin 1024) (j : Fin 8192) :
    View.ld x1 r0_1 (ix2 mm j) = x1 (ix2 mm (⟨j.val, by have := j.isLt; omega⟩ : Fin 16384)) := by
  show x1 (r0_1.emb (ix2 mm j)) = _
  congr 1
  funext a; apply Fin.ext
  match a with
  | ⟨0, _⟩ => show 0 + 1 * mm.val = mm.val; omega
  | ⟨1, _⟩ => show 0 + 1 * j.val = j.val; omega

/-- The load of their second half reads columns `8192 … 16383`. -/
theorem ld_second (x1 : Vec Ideal S1024x16384 .bf16) (mm : Fin 1024) (j : Fin 8192) :
    View.ld x1 r0_2 (ix2 mm j) = x1 (ix2 mm (⟨8192 + j.val, by have := j.isLt; omega⟩ : Fin 16384)) := by
  show x1 (r0_2.emb (ix2 mm j)) = _
  congr 1
  funext a; apply Fin.ext
  match a with
  | ⟨0, _⟩ => show 0 + 1 * mm.val = mm.val; omega
  | ⟨1, _⟩ => show 8192 + 1 * j.val = 8192 + j.val; omega

/-- Entry `(q, h)` of the block the body leaves in the output's buffer: the update of the memory read out of the split
    summary of the sequence block `x0` against the two halves of `x1`. -/
theorem out_block (x0 : Vec Ideal S1x512x8192 .bf16) (x1 : Vec Ideal S1024x16384 .bf16) (x2 x3 : Vec Ideal S1024x1024 .bf16)
    (x4 : Vec Ideal S64x1024 .f32) (x5 : Vec Ideal S1x64x1024 .f32) (x6 x7 : Vec Ideal S64x1024 .f32) (q : Fin 64) (h : Fin 1024) :
    out0_8 (F := Ideal) x0 x1 x2 x3 x4 x5 x6 x7 (ix3 0 q h)
      = Cert.Spec.upd (Cert.Spec.memOf
          (Cert.Spec.summK (fun n j => x0 (ix3 0 n j)) (fun mm j => x1 (ix2 mm (⟨j.val, by have := j.isLt; omega⟩ : Fin 16384)))
            (fun mm j => x1 (ix2 mm (⟨8192 + j.val, by have := j.isLt; omega⟩ : Fin 16384))))
          (fun hh k => x2 (ix2 hh k)) (fun hh k => x3 (ix2 hh k)) (fun qq hh => x4 (ix2 qq hh)))
          (fun qq hh => x5 (ix3 0 qq hh)) (fun qq hh => x6 (ix2 qq hh)) (fun qq hh => x7 (ix2 qq hh)) q h := by
  unfold out0_8
  rw [View.canon_unit_zero hz3]
  simp only [View.ld_unit_zero (S := S1x512x8192) hz3, View.ld_unit_zero (S := S1024x1024) hz2,
    View.ld_unit_zero (S := S64x1024) hz2, View.ld_unit_zero (S := S1x64x1024) hz3]
  rw [KerTail.pay1_apply]
  simp only [KerSoft.pay4_apply, KerSoft.pay3_apply, KerSumm.pay2_apply]
  have e1 : (fun (mm : Fin 1024) (j : Fin 8192) => View.ld x1 r0_1 (ix2 mm j))
      = fun mm j => x1 (ix2 mm (⟨j.val, by have := j.isLt; omega⟩ : Fin 16384)) :=
    funext fun mm => funext fun j => ld_first x1 mm j
  have e2 : (fun (mm : Fin 1024) (j : Fin 8192) => View.ld x1 r0_2 (ix2 mm j))
      = fun mm j => x1 (ix2 mm (⟨8192 + j.val, by have := j.isLt; omega⟩ : Fin 16384)) :=
    funext fun mm => funext fun j => ld_second x1 mm j
  rw [e1, e2]
  unfold Cert.Spec.memOf
  rfl

/-! ## The arrays the region finds, and the blocks read off them -/

variable (m : (ℓ : Loc nD τ sig) → Buf (Elt Ideal) ℓ) (ρ : Dev nD → PrngReg)

/-- The sequences as the region finds them: rounded to the narrow format (the identity here) and viewed as
    `[4, 512, 8192]`. -/
theorem V_v1 (c : Dev nD) : (show S4x512x8192.Idx → EReal from V m c main_v1)
    = shapeCast S4x512x8192 (truncf (F := Ideal) .bf16 (m ((c : Thread nD τ).loc main_arg0)) bitsLt_bf16_f32) shapeCasts_S4x4096x1024_S4x512x8192 := by
  dsimp only [V, hostOps0]; after_results; rfl

/-- The summary weights as the region finds them. -/
theorem V_v2 (c : Dev nD) : (show S1024x16384.Idx → EReal from V m c main_v2) = truncf (F := Ideal) .bf16 (m ((c : Thread nD τ).loc main_arg2)) bitsLt_bf16_f32 := by
  dsimp only [V, hostOps0]; after_results

/-- The key weights as the region finds them. -/
theorem V_v3 (c : Dev nD) : (show S1024x1024.Idx → EReal from V m c main_v3) = truncf (F := Ideal) .bf16 (m ((c : Thread nD τ).loc main_arg7)) bitsLt_bf16_f32 := by
  dsimp only [V, hostOps0]; after_results

/-- The value weights as the region finds them. -/
theorem V_v4 (c : Dev nD) : (show S1024x1024.Idx → EReal from V m c main_v4) = truncf (F := Ideal) .bf16 (m ((c : Thread nD τ).loc main_arg8)) bitsLt_bf16_f32 := by
  dsimp only [V, hostOps0]; after_results

/-- Entry `(b, n, j)` of the `[4, 512, 8192]` view is row `8n + j / 1024`, column `j % 1024` of sequence `b`. -/
theorem flat_read (A0 : S4x4096x1024.Idx → EReal) (b : Fin 4) (n : Fin 512) (j : Fin 8192) :
    shapeCast S4x512x8192 (truncf (F := Ideal) .bf16 A0 bitsLt_bf16_f32) shapeCasts_S4x4096x1024_S4x512x8192 (ix3 b n j)
      = A0 (ix3 b (⟨8 * n.val + j.val / 1024, by have := n.isLt; have := j.isLt; omega⟩ : Fin 4096)
          (⟨j.val % 1024, Nat.mod_lt _ (by decide)⟩ : Fin 1024)) := by
  refine (shapeCast_apply (truncf (F := Ideal) .bf16 A0 bitsLt_bf16_f32) shapeCasts_S4x4096x1024_S4x512x8192 (ix3 b n j)
    (ix3 b (⟨8 * n.val + j.val / 1024, by have := n.isLt; have := j.isLt; omega⟩ : Fin 4096)
      (⟨j.val % 1024, Nat.mod_lt _ (by decide)⟩ : Fin 1024)) ?_).trans rfl
  rewrite [Shape.rowMajor_val_three, Shape.rowMajor_val_three]
  have hb := b.isLt; have hn := n.isLt; have hj := j.isLt
  show (b.val * 4096 + (8 * n.val + j.val / 1024)) * 1024 + j.val % 1024 = (b.val * 512 + n.val) * 8192 + j.val
  omega

/-- The printed index maps over the grid: the sequence block, the carried state's block and the output block are
    batch element `t`'s; every other window is its whole array. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-- The grid has four points. -/
theorem t_lt (t : Fin cfg0.N) : t.val < 4 := t.isLt

/-- The sequence block at point `t`, read at `(0, n, j)`. -/
theorem blk0 (c : Dev nD) (t : Fin cfg0.N) (n : Fin 512) (j : Fin 8192) :
    iblk m c 0 t (ix3 0 n j) = (V m c main_v1 : S4x512x8192.Idx → EReal) (ix3 (⟨t.val, t_lt t⟩ : Fin 4) n j) := by
  obtain ⟨e0, e1, e2, -⟩ := idx_facts t
  show (V m c main_v1 : S4x512x8192.Idx → EReal) (((cfg0.win 0).blk t).view.emb (ix3 0 n j)) = _
  congr 1
  funext a; apply Fin.ext
  match a with
  | ⟨0, _⟩ => show win0_0.index t (0 : Fin 3) * 1 + 1 * 0 = t.val; omega
  | ⟨1, _⟩ => show win0_0.index t (1 : Fin 3) * 512 + 1 * n.val = n.val; omega
  | ⟨2, _⟩ => show win0_0.index t (2 : Fin 3) * 8192 + 1 * j.val = j.val; omega

/-- The summary weights' window is the whole array. -/
theorem blk1 (c : Dev nD) (t : Fin cfg0.N) (a : Fin 1024) (b : Fin 16384) :
    iblk m c 1 t (ix2 a b) = (show S1024x16384.Idx → EReal from V m c main_v2) (ix2 a b) := by
  have hf := idx_facts t
  show (show S1024x16384.Idx → EReal from V m c main_v2) (((cfg0.win 1).blk t).view.emb (ix2 a b)) = _
  congr 1
  funext d; apply Fin.ext
  match d with
  | ⟨0, _⟩ => show win0_1.index t (0 : Fin 2) * 1024 + 1 * a.val = a.val; omega
  | ⟨1, _⟩ => show win0_1.index t (1 : Fin 2) * 16384 + 1 * b.val = b.val; omega

/-- The key weights' window is the whole array. -/
theorem blk2 (c : Dev nD) (t : Fin cfg0.N) (a : Fin 1024) (b : Fin 1024) :
    iblk m c 2 t (ix2 a b) = (show S1024x1024.Idx → EReal from V m c main_v3) (ix2 a b) := by
  have hf := idx_facts t
  show (show S1024x1024.Idx → EReal from V m c main_v3) (((cfg0.win 2).blk t).view.emb (ix2 a b)) = _
  congr 1
  funext d; apply Fin.ext
  match d with
  | ⟨0, _⟩ => show win0_2.index t (0 : Fin 2) * 1024 + 1 * a.val = a.val; omega
  | ⟨1, _⟩ => show win0_2.index t (1 : Fin 2) * 1024 + 1 * b.val = b.val; omega

/-- The value weights' window is the whole array. -/
theorem blk3 (c : Dev nD) (t : Fin cfg0.N) (a : Fin 1024) (b : Fin 1024) :
    iblk m c 3 t (ix2 a b) = (show S1024x1024.Idx → EReal from V m c main_v4) (ix2 a b) := by
  have hf := idx_facts t
  show (show S1024x1024.Idx → EReal from V m c main_v4) (((cfg0.win 3).blk t).view.emb (ix2 a b)) = _
  congr 1
  funext d; apply Fin.ext
  match d with
  | ⟨0, _⟩ => show win0_3.index t (0 : Fin 2) * 1024 + 1 * a.val = a.val; omega
  | ⟨1, _⟩ => show win0_3.index t (1 : Fin 2) * 1024 + 1 * b.val = b.val; omega

/-- The queries' window is the whole array. -/
theorem blk4 (c : Dev nD) (t : Fin cfg0.N) (a : Fin 64) (b : Fin 1024) :
    iblk m c 4 t (ix2 a b) = (show S64x1024.Idx → EReal from V m c main_arg6) (ix2 a b) := by
  have hf := idx_facts t
  show (show S64x1024.Idx → EReal from V m c main_arg6) (((cfg0.win 4).blk t).view.emb (ix2 a b)) = _
  congr 1
  funext d; apply Fin.ext
  match d with
  | ⟨0, _⟩ => show win0_4.index t (0 : Fin 2) * 64 + 1 * a.val = a.val; omega
  | ⟨1, _⟩ => show win0_4.index t (1 : Fin 2) * 1024 + 1 * b.val = b.val; omega

/-- The carried state's block at point `t`, read at `(0, q, h)`. -/
theorem blk5 (c : Dev nD) (t : Fin cfg0.N) (q : Fin 64) (h : Fin 1024) :
    iblk m c 5 t (ix3 0 q h) = (show S4x64x1024.Idx → EReal from V m c main_arg1) (ix3 (⟨t.val, t_lt t⟩ : Fin 4) q h) := by
  have hf := idx_facts t
  show (show S4x64x1024.Idx → EReal from V m c main_arg1) (((cfg0.win 5).blk t).view.emb (ix3 0 q h)) = _
  congr 1
  funext d; apply Fin.ext
  match d with
  | ⟨0, _⟩ => show win0_5.index t (0 : Fin 3) * 1 + 1 * 0 = t.val; omega
  | ⟨1, _⟩ => show win0_5.index t (1 : Fin 3) * 64 + 1 * q.val = q.val; omega
  | ⟨2, _⟩ => show win0_5.index t (2 : Fin 3) * 1024 + 1 * h.val = h.val; omega

/-- The first normalisation's weights' window is the whole array. -/
theorem blk6 (c : Dev nD) (t : Fin cfg0.N) (a : Fin 64) (b : Fin 1024) :
    iblk m c 6 t (ix2 a b) = (show S64x1024.Idx → EReal from V m c main_arg9) (ix2 a b) := by
  have hf := idx_facts t
  show (show S64x1024.Idx → EReal from V m c main_arg9) (((cfg0.win 6).blk t).view.emb (ix2 a b)) = _
  congr 1
  funext d; apply Fin.ext
  match d with
  | ⟨0, _⟩ => show win0_6.index t (0 : Fin 2) * 64 + 1 * a.val = a.val; omega
  | ⟨1, _⟩ => show win0_6.index t (1 : Fin 2) * 1024 + 1 * b.val = b.val; omega

/-- The second normalisation's weights' window is the whole array. -/
theorem blk7 (c : Dev nD) (t : Fin cfg0.N) (a : Fin 64) (b : Fin 1024) :
    iblk m c 7 t (ix2 a b) = (show S64x1024.Idx → EReal from V m c main_arg10) (ix2 a b) := by
  have hf := idx_facts t
  show (show S64x1024.Idx → EReal from V m c main_arg10) (((cfg0.win 7).blk t).view.emb (ix2 a b)) = _
  congr 1
  funext d; apply Fin.ext
  match d with
  | ⟨0, _⟩ => show win0_7.index t (0 : Fin 2) * 64 + 1 * a.val = a.val; omega
  | ⟨1, _⟩ => show win0_7.index t (1 : Fin 2) * 1024 + 1 * b.val = b.val; omega

/-! ## The stored block is a block of the whole result -/

/-- Whatever the loaded blocks are, if they read the argument arrays as batch element `tt`'s blocks do (`h0` … `h7`),
    the stored block is batch element `tt`'s block of `Spec.whole`: the split summary of the sequence's 512 × 8192 view
    is the window summary. -/
theorem block_value (x0 : Vec Ideal S1x512x8192 .bf16) (x1 : Vec Ideal S1024x16384 .bf16) (x2 x3 : Vec Ideal S1024x1024 .bf16)
    (x4 : Vec Ideal S64x1024 .f32) (x5 : Vec Ideal S1x64x1024 .f32) (x6 x7 : Vec Ideal S64x1024 .f32)
    (A0 : S4x4096x1024.Idx → EReal) (A1 : S4x64x1024.Idx → EReal) (A2 : S1024x16384.Idx → EReal)
    (A7 A8 : S1024x1024.Idx → EReal) (A6 A9 A10 : S64x1024.Idx → EReal) (tt : Fin 4)
    (h0 : ∀ (n : Fin 512) (j : Fin 8192), x0 (ix3 0 n j)
      = A0 (ix3 tt (⟨8 * n.val + j.val / 1024, by have := n.isLt; have := j.isLt; omega⟩ : Fin 4096) (⟨j.val % 1024, Nat.mod_lt _ (by decide)⟩ : Fin 1024)))
    (h1 : ∀ (a : Fin 1024) (f : Fin 16384), x1 (ix2 a f) = A2 (ix2 a f))
    (h2 : ∀ (a b : Fin 1024), x2 (ix2 a b) = A7 (ix2 a b))
    (h3 : ∀ (a b : Fin 1024), x3 (ix2 a b) = A8 (ix2 a b))
    (h4 : ∀ (a : Fin 64) (b : Fin 1024), x4 (ix2 a b) = A6 (ix2 a b))
    (h5 : ∀ (q : Fin 64) (h : Fin 1024), x5 (ix3 0 q h) = A1 (ix3 tt q h))
    (h6 : ∀ (a : Fin 64) (b : Fin 1024), x6 (ix2 a b) = A9 (ix2 a b))
    (h7 : ∀ (a : Fin 64) (b : Fin 1024), x7 (ix2 a b) = A10 (ix2 a b)) (q : Fin 64) (h : Fin 1024) :
    out0_8 (F := Ideal) x0 x1 x2 x3 x4 x5 x6 x7 (ix3 0 q h) = Cert.Spec.whole A0 A1 A2 A7 A8 A6 A9 A10 (ix3 tt q h) := by
  rw [out_block, Cert.Spec.whole_apply]
  have e0 : (fun (n : Fin 512) (j : Fin 8192) => x0 (ix3 0 n j)) = Cert.Spec.flat (fun r d => A0 (ix3 tt r d)) :=
    funext fun n => funext fun j => (h0 n j).trans rfl
  have e1a : (fun (mm : Fin 1024) (j : Fin 8192) => x1 (ix2 mm (⟨j.val, by have := j.isLt; omega⟩ : Fin 16384)))
      = fun mm j => A2 (ix2 mm (⟨j.val, by have := j.isLt; omega⟩ : Fin 16384)) :=
    funext fun mm => funext fun j => h1 mm _
  have e1b : (fun (mm : Fin 1024) (j : Fin 8192) => x1 (ix2 mm (⟨8192 + j.val, by have := j.isLt; omega⟩ : Fin 16384)))
      = fun mm j => A2 (ix2 mm (⟨8192 + j.val, by have := j.isLt; omega⟩ : Fin 16384)) :=
    funext fun mm => funext fun j => h1 mm _
  have e2 : (fun (a b : Fin 1024) => x2 (ix2 a b)) = fun a b => A7 (ix2 a b) := funext fun a => funext fun b => h2 a b
  have e3 : (fun (a b : Fin 1024) => x3 (ix2 a b)) = fun a b => A8 (ix2 a b) := funext fun a => funext fun b => h3 a b
  have e4 : (fun (a : Fin 64) (b : Fin 1024) => x4 (ix2 a b)) = fun a b => A6 (ix2 a b) := funext fun a => funext fun b => h4 a b
  have e5 : (fun (a : Fin 64) (b : Fin 1024) => x5 (ix3 0 a b)) = fun a b => A1 (ix3 tt a b) := funext fun a => funext fun b => h5 a b
  have e6 : (fun (a : Fin 64) (b : Fin 1024) => x6 (ix2 a b)) = fun a b => A9 (ix2 a b) := funext fun a => funext fun b => h6 a b
  have e7 : (fun (a : Fin 64) (b : Fin 1024) => x7 (ix2 a b)) = fun a b => A10 (ix2 a b) := funext fun a => funext fun b => h7 a b
  have hs : Cert.Spec.summK (Cert.Spec.flat (fun r d => A0 (ix3 tt r d)))
        (fun mm j => A2 (ix2 mm (⟨j.val, by have := j.isLt; omega⟩ : Fin 16384)))
        (fun mm j => A2 (ix2 mm (⟨8192 + j.val, by have := j.isLt; omega⟩ : Fin 16384)))
      = Cert.Spec.summ (fun r d => A0 (ix3 tt r d)) (fun a f => A2 (ix2 a f)) :=
    funext fun n => funext fun mm => Cert.Spec.summK_flat (fun r d => A0 (ix3 tt r d)) (fun a f => A2 (ix2 a f)) n mm
  rw [e0, e1a, e1b, e2, e3, e4, e5, e6, e7, hs]
  rfl

/-- The result array as one function of the argument arrays as launched. -/
def G (c : Dev nD) : S4x64x1024.Idx → EReal :=
  Cert.Spec.whole (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg6)) (m ((c : Thread nD τ).loc main_arg9)) (m ((c : Thread nD τ).loc main_arg10))

/-- Entry `(0, q, h)` of what point `t` stores is entry `(t, q, h)` of `G`. -/
theorem flushed_at (c : Dev nD) (t : Fin cfg0.N) (q : Fin 64) (h : Fin 1024) :
    out0_8 (F := Ideal) (iblk m c 0 t) (iblk m c 1 t) (iblk m c 2 t) (iblk m c 3 t) (iblk m c 4 t) (iblk m c 5 t) (iblk m c 6 t) (iblk m c 7 t) (ix3 0 q h)
      = G m c (ix3 (⟨t.val, t_lt t⟩ : Fin 4) q h) := by
  refine block_value (iblk m c 0 t) (iblk m c 1 t) (iblk m c 2 t) (iblk m c 3 t) (iblk m c 4 t) (iblk m c 5 t) (iblk m c 6 t) (iblk m c 7 t)
    (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg6)) (m ((c : Thread nD τ).loc main_arg9)) (m ((c : Thread nD τ).loc main_arg10))
    (⟨t.val, t_lt t⟩ : Fin 4) ?_ ?_ ?_ ?_ ?_ ?_ ?_ ?_ q h
  · intro n j
    exact (blk0 m c t n j).trans ((congrFun (V_v1 m c) _).trans (flat_read _ _ n j))
  · intro a f
    exact (blk1 m c t a f).trans ((congrFun (V_v2 m c) _).trans rfl)
  · intro a b
    exact (blk2 m c t a b).trans ((congrFun (V_v3 m c) _).trans rfl)
  · intro a b
    exact (blk3 m c t a b).trans ((congrFun (V_v4 m c) _).trans rfl)
  · intro a b
    exact (blk4 m c t a b).trans (congrFun (V_main_arg6 m c) _)
  · intro q h
    exact (blk5 m c t q h).trans (congrFun (V_main_arg1 m c) _)
  · intro a b
    exact (blk6 m c t a b).trans (congrFun (V_main_arg9 m c) _)
  · intro a b
    exact (blk7 m c t a b).trans (congrFun (V_main_arg10 m c) _)

/-- WHAT POINT `t` WRITES BACK is block `t` of `G`. -/
theorem flushed_eq (c : Dev nD) (t : Fin cfg0.N) :
    (dats m 0 c).flushed 8 t = ((cfg0.win 8).blk t).view.read (Elt Ideal) (G m c) := by
  rw [Value.flushed8]
  funext y
  obtain ⟨e0, e1, e2⟩ : win0_8.index t (0 : Fin 3) = t.val ∧ win0_8.index t (1 : Fin 3) = 0 ∧ win0_8.index t (2 : Fin 3) = 0 := by
    have hf := idx_facts t; exact ⟨hf.2.2.2.2.2.2.2.2.2.2.2.2.2.2.2.2.2.2.1, hf.2.2.2.2.2.2.2.2.2.2.2.2.2.2.2.2.2.2.2.1, hf.2.2.2.2.2.2.2.2.2.2.2.2.2.2.2.2.2.2.2.2⟩
  have hy0 : (y 0).val < 1 := (y 0).isLt
  have hy1 : (y 1).val < 64 := (y 1).isLt
  have hy2 : (y 2).val < 1024 := (y 2).isLt
  have ey : y = ix3 (0 : Fin 1) (⟨(y 1).val, hy1⟩ : Fin 64) (⟨(y 2).val, hy2⟩ : Fin 1024) := by
    funext a; apply Fin.ext
    match a with
    | ⟨0, _⟩ => show (y 0).val = 0; omega
    | ⟨1, _⟩ => rfl
    | ⟨2, _⟩ => rfl
  show out0_8 (F := Ideal) (iblk m c 0 t) (iblk m c 1 t) (iblk m c 2 t) (iblk m c 3 t) (iblk m c 4 t) (iblk m c 5 t) (iblk m c 6 t) (iblk m c 7 t) y
    = G m c (((cfg0.win 8).blk t).view.emb y)
  rw [ey]
  refine (flushed_at m c t _ _).trans ?_
  congr 1
  funext a; apply Fin.ext
  match a with
  | ⟨0, _⟩ => show t.val = win0_8.index t (0 : Fin 3) * 1 + 1 * 0; omega
  | ⟨1, _⟩ => show (y 1).val = win0_8.index t (1 : Fin 3) * 64 + 1 * (y 1).val; omega
  | ⟨2, _⟩ => show (y 2).val = win0_8.index t (2 : Fin 3) * 1024 + 1 * (y 2).val; omega

/-- An index of the result is in point `t`'s block iff each coordinate is in the block's range on its axis. -/
theorem mem_blk8 (t : Fin cfg0.N) (i : S4x64x1024.Idx) :
    i ∈ ((cfg0.win 8).blk t).view.set ↔ ∀ a : Fin 3, win0_8.index t a * S1x64x1024.size a ≤ (i a).val
      ∧ (i a).val < win0_8.index t a * S1x64x1024.size a + S1x64x1024.size a := by
  show i ∈ ((View.whole main_v5).slice (win0_8.rect t)).set ↔ _
  rw [View.set_slice_whole, Rect.mem_set_unit]
  exact Iff.rfl

/-- Every index of the result lies in the block of the point that is its batch coordinate. -/
theorem cover (c : Dev nD) (i : S4x64x1024.Idx) :
    ∃ t : Fin cfg0.N, (cfg0.win 8).flush t = true ∧ i ∈ ((cfg0.win 8).blk t).view.set := by
  have hi0 : (i 0).val < 4 := (i 0).isLt
  have hi1 : (i 1).val < 64 := (i 1).isLt
  have hi2 : (i 2).val < 1024 := (i 2).isLt
  refine ⟨⟨(i 0).val, hi0⟩, flush0_8 _, ?_⟩
  have hf := idx_facts ⟨(i 0).val, hi0⟩
  obtain ⟨e0, e1, e2⟩ : win0_8.index (⟨(i 0).val, hi0⟩ : Fin cfg0.N) (0 : Fin 3) = (i 0).val ∧ win0_8.index (⟨(i 0).val, hi0⟩ : Fin cfg0.N) (1 : Fin 3) = 0
      ∧ win0_8.index (⟨(i 0).val, hi0⟩ : Fin cfg0.N) (2 : Fin 3) = 0 :=
    ⟨hf.2.2.2.2.2.2.2.2.2.2.2.2.2.2.2.2.2.2.1, hf.2.2.2.2.2.2.2.2.2.2.2.2.2.2.2.2.2.2.2.1, hf.2.2.2.2.2.2.2.2.2.2.2.2.2.2.2.2.2.2.2.2⟩
  rw [mem_blk8]
  intro a
  match a with
  | ⟨0, _⟩ => show win0_8.index (⟨(i 0).val, hi0⟩ : Fin cfg0.N) (0 : Fin 3) * 1 ≤ (i 0).val ∧ (i 0).val < win0_8.index (⟨(i 0).val, hi0⟩ : Fin cfg0.N) (0 : Fin 3) * 1 + 1; omega
  | ⟨1, _⟩ => show win0_8.index (⟨(i 0).val, hi0⟩ : Fin cfg0.N) (1 : Fin 3) * 64 ≤ (i 1).val ∧ (i 1).val < win0_8.index (⟨(i 0).val, hi0⟩ : Fin cfg0.N) (1 : Fin 3) * 64 + 64; omega
  | ⟨2, _⟩ => show win0_8.index (⟨(i 0).val, hi0⟩ : Fin cfg0.N) (2 : Fin 3) * 1024 ≤ (i 2).val ∧ (i 2).val < win0_8.index (⟨(i 0).val, hi0⟩ : Fin cfg0.N) (2 : Fin 3) * 1024 + 1024; omega

/-- THE ARRAY after the run is `G` of the arguments. -/
theorem final (c : Dev nD) : (dats m 0 c).arrAt 8 cfg0.N = G m c :=
  (dats m 0 c).arrAt_eq_of_cover 8 (G m c) (fun t _ => flushed_eq m c t) (cover c)

/-- The kernel's run: every weakly fair execution terminates with the result array at `G` of the arguments as
    launched and the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.KerVal

end
-- ==== Proof.RefWin.lean ====
/-
  The reference's windows, read at an entry: the sequence padded with eight zero rows, gathered at rows 8n + l
  (the index array computed from two iotas; the wrap of a negative index never applies) and laid side by side.
-/
import proofs.«424976_j2362232013133_4_alg».proof.Proof.RefRead
import proofs.«424976_j2362232013133_4_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.ReferenceIdeal.RefWin

open Idealize.ShloMosaic Idealize.ShloMosaic.TcCoe Idealize.ShloMosaic.ValueIdx Cert.ReferenceIdeal Cert.ReferenceIdeal.ReadP

/-! ## The start index: the word `8n + l` -/

/-- Eight times a window number plus a row offset, computed on 32-bit words, is the word of the number: nothing wraps. -/
theorem word_eq (n l : Nat) (hn : n < 512) (hl : l < 16) :
    IntOp.addi (IntOp.muli (BitVec.ofNat 32 n) 8#32) (BitVec.ofNat 32 l) = BitVec.ofNat 32 (8 * n + l) := by
  unfold IntOp.addi IntOp.muli
  apply BitVec.eq_of_toNat_eq
  simp only [BitVec.toNat_add, BitVec.toNat_mul, BitVec.toNat_ofNat, Nat.reducePow]
  omega

/-- A small word is not negative, so the wrap of a negative index leaves it alone. -/
theorem wrap_small (k : Nat) (hk : k < 2 ^ 31) :
    Scalar.select (IntOp.cmpi .slt (BitVec.ofNat 32 k) 0#32) (IntOp.addi (BitVec.ofNat 32 k) 4104#32) (BitVec.ofNat 32 k)
      = BitVec.ofNat 32 k := by
  have hk' : (BitVec.ofNat 32 k).toNat < 2 ^ 31 := by
    rw [BitVec.toNat_ofNat]; exact lt_of_le_of_lt (Nat.mod_le _ _) hk
  have h0 : (0#32 : BitVec 32).toNat < 2 ^ 31 := by decide
  have hne : ¬ IntOp.cmpi .slt (BitVec.ofNat 32 k) 0#32 = 1#1 := by
    rw [StableHlo.Predicate.slt_iff_toNat hk' h0]
    exact Nat.not_lt_zero _
  rw [eq_zero_of_ne_one hne, select_zero]

/-- The start index of window `n`, row offset `l`: the word `8n + l`. -/
theorem v15_apply (n : Fin 512) (l : Fin 16) (z : Fin 1) :
    val_main_v15 (F := Ideal) (ix3 n l z) = BitVec.ofNat 32 (8 * n.val + l.val) := by
  rw [val_main_v15_apply, val_main_v14_apply, val_main_v11_apply, val_main_v13_apply, val_main_v9_apply,
    val_main_v10_apply, val_main_v12_apply, val_main_c_1_apply, val_main_c_2_apply, val_main_v7_apply, val_main_v8_apply,
    val_main_v4_apply, val_main_v6_apply, val_main_v2_apply, val_main_v3_apply, val_main_v5_apply, val_main_v1_apply,
    val_main_c_0_apply]
  show Scalar.select (IntOp.cmpi .slt (IntOp.addi (IntOp.muli (BitVec.ofNat 32 n.val) 8#32) (BitVec.ofNat 32 l.val)) 0#32)
      (IntOp.addi (IntOp.addi (IntOp.muli (BitVec.ofNat 32 n.val) 8#32) (BitVec.ofNat 32 l.val)) 4104#32)
      (IntOp.addi (IntOp.muli (BitVec.ofNat 32 n.val) 8#32) (BitVec.ofNat 32 l.val)) = _
  rw [word_eq n.val l.val n.isLt l.isLt]
  exact wrap_small _ (by have := n.isLt; have := l.isLt; omega)

/-! ## The gather, read at an entry -/

/-- The gather's dimension numbers: offset axes 0 and 3 of the result, operand axis 1 collapsed and indexed. -/
abbrev GD : GatherDims S4x4104x1024 S512x16x1 S4x512x16x1024 :=
  gather_S4x4104x1024_S512x16x1_S4x512x16x1024_03_1_n_n_1_2_411024

/-- An operand axis the start index map does not name starts at 0. -/
theorem start_of_not_mem {s si t : Shape} (D : GatherDims s si t) {w : Nat} (j : t.Idx) (idx : IVec si w) (a : Fin s.rank)
    (ha : a ∉ D.startIndexMap) : D.start j idx a = 0 := by
  unfold GatherDims.start; rw [dif_neg ha]

/-- Entry `(b, n, l, d)` of the gathered array is the padded sequence's at row `8n + l`. -/
theorem v16_apply (x0 : (⟨S4x4096x1024, .f32⟩ : BufTy).Contents (Elt Ideal)) (b : Fin 4) (n : Fin 512) (l : Fin 16) (d : Fin 1024) :
    val_main_v16 (F := Ideal) x0 (ix4 b n l d)
      = val_main_v0 (F := Ideal) x0 (ix3 b ⟨8 * n.val + l.val, by have := n.isLt; have := l.isLt; omega⟩ d) := by
  have hn := n.isLt
  have hl := l.isLt
  have key : GD.operandIdx (ix4 b n l d) (val_main_v15 (F := Ideal))
      = ix3 b ⟨8 * n.val + l.val, by omega⟩ d := by
    funext a
    refine Fin.ext ?_
    match a with
    | ⟨0, h0⟩ =>
      -- axis 0: no start, the offset coordinate of result axis 0
      show GD.start (ix4 b n l d) (val_main_v15 (F := Ideal)) ⟨0, h0⟩ + GD.batchCoord (ix4 b n l d) ⟨0, h0⟩
        + GD.offCoord (ix4 b n l d) ⟨0, h0⟩ = b.val
      rw [start_of_not_mem GD _ _ ⟨0, h0⟩ (show (0 : Fin S4x4104x1024.rank) ∉ GD.startIndexMap by decide),
        GatherDims.batchCoord_eq_zero _ _ _ List.not_mem_nil, Nat.zero_add]
      have hk : (⟨0, h0⟩ : Fin S4x4104x1024.rank) ∈ GD.sKept := (show (0 : Fin S4x4104x1024.rank) ∈ GD.sKept by decide)
      unfold GatherDims.offCoord
      rw [dif_pos hk]
      rfl
    | ⟨1, h1⟩ =>
      -- axis 1: collapsed, the clamped start index
      show GD.start (ix4 b n l d) (val_main_v15 (F := Ideal)) ⟨1, h1⟩ + GD.batchCoord (ix4 b n l d) ⟨1, h1⟩
        + GD.offCoord (ix4 b n l d) ⟨1, h1⟩ = 8 * n.val + l.val
      rw [GatherDims.batchCoord_eq_zero _ _ _ List.not_mem_nil,
        GatherDims.offCoord_eq_zero _ _ _ (fun h => ((GatherDims.mem_sKept _ _).mp h).1 (List.mem_singleton.mpr rfl))]
      simp only [Nat.add_zero]
      unfold GatherDims.start
      have hm : (⟨1, h1⟩ : Fin S4x4104x1024.rank) ∈ GD.startIndexMap := List.mem_singleton.mpr rfl
      rw [dif_pos hm]
      have hsi : GD.siIdx (ix4 b n l d) ⟨List.idxOf (⟨1, h1⟩ : Fin S4x4104x1024.rank) GD.startIndexMap,
          List.idxOf_lt_length_iff.2 hm⟩ = ix3 n l (0 : Fin 1) := by
        funext c; refine Fin.ext ?_
        match c with
        | ⟨0, _⟩ => rfl
        | ⟨1, _⟩ => rfl
        | ⟨2, _⟩ => rfl
      rw [hsi, v15_apply, StableHlo.Predicate.toInt_ofNat_small _ (by omega), Int.toNat_natCast]
      show min (8 * n.val + l.val) (4104 - 1) = 8 * n.val + l.val
      omega
    | ⟨2, h2⟩ =>
      -- axis 2: no start, the offset coordinate of result axis 3
      show GD.start (ix4 b n l d) (val_main_v15 (F := Ideal)) ⟨2, h2⟩ + GD.batchCoord (ix4 b n l d) ⟨2, h2⟩
        + GD.offCoord (ix4 b n l d) ⟨2, h2⟩ = d.val
      rw [start_of_not_mem GD _ _ ⟨2, h2⟩ (show (2 : Fin S4x4104x1024.rank) ∉ GD.startIndexMap by decide),
        GatherDims.batchCoord_eq_zero _ _ _ List.not_mem_nil, Nat.zero_add]
      have hk : (⟨2, h2⟩ : Fin S4x4104x1024.rank) ∈ GD.sKept := (show (2 : Fin S4x4104x1024.rank) ∈ GD.sKept by decide)
      unfold GatherDims.offCoord
      rw [dif_pos hk]
      rfl
  exact congrArg (val_main_v0 (F := Ideal) x0) key

/-! ## The pad, read at an entry -/

/-- Inside the operand on every axis, a pad reads the operand. -/
theorem pad_of_inside {α : Type} {s u : Shape} (t : Shape) (lo hi interior : Fin s.rank → Nat) (x : s.Idx → α) (v : u.Idx → α)
    (h : s.Pads lo hi interior t) (hu : 0 < u.numel) (j : t.Idx)
    (hin : ∀ a : Fin s.rank, lo a ≤ (j (a.cast h.1)).val ∧ ((j (a.cast h.1)).val - lo a) % (interior a + 1) = 0
        ∧ ((j (a.cast h.1)).val - lo a) / (interior a + 1) < s.size a) :
    pad t lo hi interior x v h hu j = x fun a => ⟨((j (a.cast h.1)).val - lo a) / (interior a + 1), (hin a).2.2⟩ :=
  dif_pos hin

/-- Outside the operand on some axis, a pad reads the padding value. -/
theorem pad_of_outside {α : Type} {s u : Shape} (t : Shape) (lo hi interior : Fin s.rank → Nat) (x : s.Idx → α) (v : u.Idx → α)
    (h : s.Pads lo hi interior t) (hu : 0 < u.numel) (j : t.Idx)
    (hout : ¬ ∀ a : Fin s.rank, lo a ≤ (j (a.cast h.1)).val ∧ ((j (a.cast h.1)).val - lo a) % (interior a + 1) = 0
        ∧ ((j (a.cast h.1)).val - lo a) / (interior a + 1) < s.size a) :
    pad t lo hi interior x v h hu j = v (Shape.Idx.first hu) :=
  dif_neg hout

/-- A row of the padded sequence below 4096 is the sequence's row. -/
theorem v0_apply_lt (x0 : (⟨S4x4096x1024, .f32⟩ : BufTy).Contents (Elt Ideal)) (b : Fin 4) (r : Fin 4104) (d : Fin 1024)
    (hr : r.val < 4096) :
    val_main_v0 (F := Ideal) x0 (ix3 b r d) = x0 (ix3 b ⟨r.val, hr⟩ d) := by
  have hb := b.isLt
  have hd := d.isLt
  unfold val_main_v0
  refine (pad_of_inside S4x4104x1024 ![0, 0, 0] ![0, 8, 0] ![0, 0, 0] x0 (val_main_call0_v0 (F := Ideal))
    Gen.pads_S4x4096x1024_S4x4104x1024_000_080_000 Gen.h_S_ (ix3 b r d) (fun a => match a with
      | ⟨0, _⟩ => by
        show 0 ≤ b.val ∧ (b.val - 0) % (0 + 1) = 0 ∧ (b.val - 0) / (0 + 1) < 4
        omega
      | ⟨1, _⟩ => by
        show 0 ≤ r.val ∧ (r.val - 0) % (0 + 1) = 0 ∧ (r.val - 0) / (0 + 1) < 4096
        omega
      | ⟨2, _⟩ => by
        show 0 ≤ d.val ∧ (d.val - 0) % (0 + 1) = 0 ∧ (d.val - 0) / (0 + 1) < 1024
        omega)).trans ?_
  congr 1
  funext a
  refine Fin.ext ?_
  match a with
  | ⟨0, _⟩ => show (b.val - 0) / (0 + 1) = b.val; omega
  | ⟨1, _⟩ => show (r.val - 0) / (0 + 1) = r.val; omega
  | ⟨2, _⟩ => show (d.val - 0) / (0 + 1) = d.val; omega

/-- A row of the padded sequence at or past 4096 is zero. -/
theorem v0_apply_ge (x0 : (⟨S4x4096x1024, .f32⟩ : BufTy).Contents (Elt Ideal)) (b : Fin 4) (r : Fin 4104) (d : Fin 1024)
    (hr : 4096 ≤ r.val) :
    val_main_v0 (F := Ideal) x0 (ix3 b r d) = 0 := by
  unfold val_main_v0
  refine (pad_of_outside S4x4104x1024 ![0, 0, 0] ![0, 8, 0] ![0, 0, 0] x0 (val_main_call0_v0 (F := Ideal))
    Gen.pads_S4x4096x1024_S4x4104x1024_000_080_000 Gen.h_S_ (ix3 b r d) (fun hall => by
      have h1 := (hall ⟨1, by decide⟩).2.2
      have h1' : (r.val - 0) / (0 + 1) < 4096 := h1
      omega)).trans ?_
  rw [val_main_call0_v0_apply, val_main_c_apply]
  show ((((0#32 : BitVec 32).toInt : ℝ)) : EReal) = 0
  rw [show (0#32 : BitVec 32).toInt = 0 by decide]
  simp

/-- Entry `f` of window `n` of batch element `b` in the reference is `Spec.win` of that batch element's sequence. -/
theorem v17_apply (x0 : (⟨S4x4096x1024, .f32⟩ : BufTy).Contents (Elt Ideal)) (b : Fin 4) (n : Fin 512) (f : Fin 16384) :
    val_main_v17 (F := Ideal) x0 (ix3 b n f) = Cert.Spec.win (fun r d => x0 (ix3 b r d)) n f := by
  have hb := b.isLt
  have hn := n.isLt
  have hf := f.isLt
  have hidx : idx_main_v17 (ix3 b n f)
      = ix4 b n ⟨f.val / 1024, by omega⟩ ⟨f.val % 1024, Nat.mod_lt _ (by decide)⟩ := by
    funext a
    refine Fin.ext ?_
    match a with
    | ⟨0, _⟩ => show ((b.val * 512 + n.val) * 16384 + f.val) / 8388608 = b.val; omega
    | ⟨1, _⟩ => show ((b.val * 512 + n.val) * 16384 + f.val) / 16384 % 512 = n.val; omega
    | ⟨2, _⟩ => show ((b.val * 512 + n.val) * 16384 + f.val) / 1024 % 16 = f.val / 1024; omega
    | ⟨3, _⟩ => show ((b.val * 512 + n.val) * 16384 + f.val) % 1024 = f.val % 1024; omega
  rw [val_main_v17_apply, hidx, v16_apply]
  unfold Cert.Spec.win
  by_cases h : 8 * n.val + f.val / 1024 < 4096
  · rw [dif_pos h]
    exact v0_apply_lt x0 b _ _ h
  · rw [dif_neg h]
    exact v0_apply_ge x0 b _ _ (by show 4096 ≤ 8 * n.val + f.val / 1024; omega)

end Cert.ReferenceIdeal.RefWin

end
-- ==== Proof.RefMem.lean ====
/-
  The reference from its windows to the memory read-out, at an entry: the summary, the key and value projections,
  the scaled scores (a product with 1 / √1024 = 2⁻⁵), the softmax along a row and the weighted sum.
-/
import proofs.«424976_j2362232013133_4_alg».proof.Proof.RefRead
import proofs.«424976_j2362232013133_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefMem

open Idealize.ShloMosaic Idealize.ShloMosaic.TcCoe Idealize.ShloMosaic.ValueIdx Cert.ReferenceIdeal Cert.ReferenceIdeal.ReadP

/-! ## The scale -/

/-- The word `0x3F800000` is the number one. -/
theorem word_one : Ideal.ofBits .f32 0x3F800000#32 = ((1 : ℝ) : EReal) := by
  simp [Ideal.ofBits, Ideal.ieee]
  rw [← EReal.coe_mul, ← EReal.coe_one]
  exact congrArg _ (by norm_num)

/-- The word `0x44800000` is 1024. -/
theorem word_1024 : Ideal.ofBits .f32 0x44800000#32 = ((1024 : ℝ) : EReal) := by
  simp [Ideal.ofBits, Ideal.ieee]
  rw [← EReal.coe_mul]
  exact congrArg _ (by norm_num)

/-- The word `0x3D000000` is 1 / 32. -/
theorem word_scl : Ideal.ofBits .f32 0x3D000000#32 = ((1 / 32 : ℝ) : EReal) := by
  simp [Ideal.ofBits, Ideal.ieee]
  rw [← EReal.coe_mul]
  exact congrArg _ (by norm_num)

/-- `1 / √1024 = 2⁻⁵`: the quotient the reference computes is the scale. -/
theorem scl_eq : Ideal.div (Ideal.ofBits .f32 0x3F800000#32) (Ideal.sqrt (Ideal.ofBits .f32 0x44800000#32))
    = Cert.Spec.SCL := by
  have hs : Real.sqrt 1024 = 32 := by
    rw [show (1024 : ℝ) = 32 ^ 2 by norm_num]
    exact Real.sqrt_sq (by norm_num)
  show _ = Ideal.ofBits .f32 0x3D000000#32
  rw [word_one, word_1024, word_scl, Ideal.sqrt_coe, if_neg (by norm_num), hs,
    Ideal.div_coe (by norm_num : (32 : ℝ) ≠ 0), ← EReal.coe_mul, one_mul]

/-! ## Indices -/

/-- A rank-3 index function equals the one with the same three coordinates. -/
macro "idx3" : tactic =>
  `(tactic| exact funext fun a => Fin.ext (by match a with | ⟨0, _⟩ => rfl | ⟨1, _⟩ => rfl | ⟨2, _⟩ => rfl))
/-- The same at rank 2. -/
macro "idx2" : tactic =>
  `(tactic| exact funext fun a => Fin.ext (by match a with | ⟨0, _⟩ => rfl | ⟨1, _⟩ => rfl))

section Stages

variable (x0 : (⟨S4x4096x1024, .f32⟩ : BufTy).Contents (Elt Ideal)) (x2 : (⟨S1024x16384, .f32⟩ : BufTy).Contents (Elt Ideal))
  (x6 : (⟨S64x1024, .f32⟩ : BufTy).Contents (Elt Ideal)) (x7 x8 : (⟨S1024x1024, .f32⟩ : BufTy).Contents (Elt Ideal))
  (Wn : Fin 4 → Fin 512 → Fin 16384 → EReal)

/-- The summary of batch element `b`: its windows contracted with the weight rows. -/
abbrev Sb (b : Fin 4) : Fin 512 → Fin 1024 → EReal := fun n m => ∑ f : Fin 16384, Wn b n f * x2 (ix2 m f)
/-- A weight matrix as a function of its two coordinates. -/
abbrev Wf (x : (⟨S1024x1024, .f32⟩ : BufTy).Contents (Elt Ideal)) : Fin 1024 → Fin 1024 → EReal := fun h k => x (ix2 h k)
/-- The queries as a function of their two coordinates. -/
abbrev Qf : Fin 64 → Fin 1024 → EReal := fun q h => x6 (ix2 q h)
/-- The scaled scores of batch element `b`. -/
abbrev Ab (b : Fin 4) : Fin 64 → Fin 512 → EReal :=
  Cert.Spec.score (Qf x6) (Cert.Spec.proj (Sb x2 Wn b) (Wf x7))

variable (hW : ∀ (b : Fin 4) (n : Fin 512) (f : Fin 16384), val_main_v17 (F := Ideal) x0 (ix3 b n f) = Wn b n f)
include hW

/-- The summary: the windows against the weight rows. -/
theorem v18_at (b : Fin 4) (n : Fin 512) (m : Fin 1024) :
    val_main_v18 (F := Ideal) x0 x2 (ix3 b n m) = Sb x2 Wn b n m := by
  refine (val_main_v18_apply x0 x2 (ix3 b n m)).trans ?_
  refine Finset.sum_congr rfl fun k _ => ?_
  have e1 : lidx_main_v18 (ix3 b n m) k = ix3 b n k := by idx3
  have e2 : ridx_main_v18 (ix3 b n m) k = ix2 m k := by idx2
  rw [e1, e2, hW]

/-- The key projection of the summary. -/
theorem v39_at (b : Fin 4) (n : Fin 512) (h : Fin 1024) :
    val_main_v39 (F := Ideal) x0 x2 x7 (ix3 b n h) = Cert.Spec.proj (Sb x2 Wn b) (Wf x7) n h := by
  refine (val_main_v39_apply x0 x2 x7 (ix3 b n h)).trans ?_
  refine Finset.sum_congr rfl fun k _ => ?_
  have e1 : lidx_main_v39 (ix3 b n h) k = ix3 b n k := by idx3
  have e2 : ridx_main_v39 (ix3 b n h) k = ix2 h k := by idx2
  rw [e1, e2, v18_at x0 x2 Wn hW b n k]

/-- The value projection of the summary. -/
theorem v40_at (b : Fin 4) (n : Fin 512) (h : Fin 1024) :
    val_main_v40 (F := Ideal) x0 x2 x8 (ix3 b n h) = Cert.Spec.proj (Sb x2 Wn b) (Wf x8) n h := by
  refine (val_main_v40_apply x0 x2 x8 (ix3 b n h)).trans ?_
  refine Finset.sum_congr rfl fun k _ => ?_
  have e1 : lidx_main_v40 (ix3 b n h) k = ix3 b n k := by idx3
  have e2 : ridx_main_v40 (ix3 b n h) k = ix2 h k := by idx2
  rw [e1, e2, v18_at x0 x2 Wn hW b n k]

/-- The transposed product of the keys with the queries: the unscaled scores, queries first. -/
theorem v42_at (b : Fin 4) (q : Fin 64) (n : Fin 512) :
    val_main_v42 (F := Ideal) x0 x2 x6 x7 (ix3 b q n)
      = ∑ h : Fin 1024, Qf x6 q h * Cert.Spec.proj (Sb x2 Wn b) (Wf x7) n h := by
  refine (val_main_v42_apply (F := Ideal) x0 x2 x6 x7 (ix3 b q n)).trans ?_
  have e0 : idx_main_v42 (ix3 b q n) = ix3 b n q := by idx3
  rw [e0]
  refine (val_main_v41_apply x0 x2 x6 x7 (ix3 b n q)).trans ?_
  refine Finset.sum_congr rfl fun k _ => ?_
  have e1 : lidx_main_v41 (ix3 b n q) k = ix3 b n k := by idx3
  have e2 : ridx_main_v41 (ix3 b n q) k = ix2 q k := by idx2
  rw [e1, e2, v39_at x0 x2 x7 Wn hW b n k, mul_comm]

omit hW in
/-- The broadcast scalar is the scale at every entry. -/
theorem v43_at (i : S4x64x512.Idx) : val_main_v43 (F := Ideal) i = Cert.Spec.SCL := by
  refine (val_main_v43_apply (F := Ideal) i).trans ?_
  exact scl_eq

/-- The scaled scores. -/
theorem v44_at (b : Fin 4) (q : Fin 64) (n : Fin 512) :
    val_main_v44 (F := Ideal) x0 x2 x6 x7 (ix3 b q n) = Ab x2 x6 x7 Wn b q n := by
  refine (val_main_v44_apply (F := Ideal) x0 x2 x6 x7 (ix3 b q n)).trans ?_
  show val_main_v42 (F := Ideal) x0 x2 x6 x7 (ix3 b q n) * val_main_v43 (F := Ideal) (ix3 b q n) = _
  rw [v42_at x0 x2 x6 x7 Wn hW b q n, v43_at]
  rfl

end Stages

/-! ## The row maximum -/

/-- A reduced index `(b, q)` with the coordinate `k` put back on the last axis is `(b, q, k)`. -/
theorem lift_ix3 (hR : S4x64x512.Reduces [2] S4x64) (b : Fin 4) (q : Fin 64) (k : Fin (S4x64x512.size 2)) :
    hR.lift (ix2 b q) k = ix3 b q (⟨k.val, k.isLt⟩ : Fin 512) := by
  funext c; apply Fin.ext
  match c with
  | ⟨0, _⟩ => rfl
  | ⟨1, _⟩ => rfl
  | ⟨2, _⟩ => rfl

/-- A maximum taken over the last axis from an initial value, at `(b, q)`, is the fold of `max` over that row. -/
theorem rowmax_fold (y : FVec Ideal S4x64x512 .f32) (c : FVec Ideal S_ .f32)
    (h' : S4x64x512.ReducesTo [2] S4x64) (hu : 0 < S_.numel) (b : Fin 4) (q : Fin 64) :
    Host.reduce FloatOps.maximumf y c h' hu (ix2 b q)
      = (Finset.univ : Finset (Fin 512)).fold max (c (Shape.Idx.first hu)) (fun n => y (ix3 b q n)) := by
  have hR : S4x64x512.Reduces [2] S4x64 := by decide
  rw [Host.reduce_eq_fold_single FloatOps.maximumf y c h' hR hu]
  have hf : (y ∘ hR.lift (ix2 b q)) = fun k : Fin 512 => y (ix3 b q k) :=
    funext fun k => congrArg y (lift_ix3 hR b q k)
  exact congrArg (fun f => Finset.fold max (c (Shape.Idx.first hu)) f (Finset.univ : Finset (Fin 512))) hf

section Soft

variable (x0 : (⟨S4x4096x1024, .f32⟩ : BufTy).Contents (Elt Ideal)) (x2 : (⟨S1024x16384, .f32⟩ : BufTy).Contents (Elt Ideal))
  (x6 : (⟨S64x1024, .f32⟩ : BufTy).Contents (Elt Ideal)) (x7 x8 : (⟨S1024x1024, .f32⟩ : BufTy).Contents (Elt Ideal))
  (Wn : Fin 4 → Fin 512 → Fin 16384 → EReal)
  (hW : ∀ (b : Fin 4) (n : Fin 512) (f : Fin 16384), val_main_v17 (F := Ideal) x0 (ix3 b n f) = Wn b n f)
include hW

/-- The maximum of a row of scores, folded from −∞ over the row. -/
theorem v45_at (b : Fin 4) (q : Fin 64) :
    val_main_v45 (F := Ideal) x0 x2 x6 x7 (ix2 b q)
      = (Finset.univ : Finset (Fin 512)).fold max Cert.Spec.NI (Ab x2 x6 x7 Wn b q) := by
  have h44 : ∀ n : Fin 512, val_main_v44 (F := Ideal) x0 x2 x6 x7 (ix3 b q n) = Ab x2 x6 x7 Wn b q n :=
    v44_at x0 x2 x6 x7 Wn hW b q
  unfold val_main_v45
  generalize val_main_v44 (F := Ideal) x0 x2 x6 x7 = y at h44 ⊢
  refine (rowmax_fold y (val_main_cst_7 (F := Ideal)) _ _ b q).trans ?_
  exact congrArg (fun f => Finset.fold max Cert.Spec.NI f (Finset.univ : Finset (Fin 512))) (funext h44)

/-- The row maximum, taken once more against −∞. -/
theorem v47_at (b : Fin 4) (q : Fin 64) :
    val_main_v47 (F := Ideal) x0 x2 x6 x7 (ix2 b q) = Cert.Spec.rowmax (Ab x2 x6 x7 Wn b) q := by
  refine (val_main_v47_apply (F := Ideal) x0 x2 x6 x7 (ix2 b q)).trans ?_
  show max (val_main_v46 (F := Ideal) (ix2 b q)) (val_main_v45 (F := Ideal) x0 x2 x6 x7 (ix2 b q)) = _
  rw [v45_at x0 x2 x6 x7 Wn hW b q, val_main_v46_apply]
  rfl

/-- The row maximum, broadcast along the row. -/
theorem v49_at (b : Fin 4) (q : Fin 64) (n : Fin 512) :
    val_main_v49 (F := Ideal) x0 x2 x6 x7 (ix3 b q n) = Cert.Spec.rowmax (Ab x2 x6 x7 Wn b) q := by
  refine (val_main_v49_apply (F := Ideal) x0 x2 x6 x7 (ix3 b q n)).trans ?_
  refine (val_main_v48_apply (F := Ideal) x0 x2 x6 x7 _).trans ?_
  have e : idx_main_v48 (idx_main_v49 (ix3 b q n)) = ix2 b q := by idx2
  rw [e]
  exact v47_at x0 x2 x6 x7 Wn hW b q

/-- The exponential of a score less its row's maximum. -/
theorem v51_at (b : Fin 4) (q : Fin 64) (n : Fin 512) :
    val_main_v51 (F := Ideal) x0 x2 x6 x7 (ix3 b q n)
      = Ideal.exp (Ab x2 x6 x7 Wn b q n - Cert.Spec.rowmax (Ab x2 x6 x7 Wn b) q) := by
  refine (val_main_v51_apply (F := Ideal) x0 x2 x6 x7 (ix3 b q n)).trans ?_
  rw [Ideal.hostUnary_exp_def, val_main_v50_apply, Ideal.subf_def, v44_at x0 x2 x6 x7 Wn hW b q n,
    v49_at x0 x2 x6 x7 Wn hW b q n]

/-- The sum of a row's exponentials. -/
theorem v52_at (b : Fin 4) (q : Fin 64) :
    val_main_v52 (F := Ideal) x0 x2 x6 x7 (ix2 b q)
      = ∑ n' : Fin 512, Ideal.exp (Ab x2 x6 x7 Wn b q n' - Cert.Spec.rowmax (Ab x2 x6 x7 Wn b) q) := by
  refine (val_main_v52_apply x0 x2 x6 x7 (ix2 b q)).trans ?_
  have hz : val_main_cst_9 (F := Ideal) (Shape.Idx.first Gen.h_S_) = 0 := Ideal.ofBits_zero_f32
  rw [hz, zero_add]
  refine Finset.sum_congr rfl fun k _ => ?_
  have e : idx_main_v52 (ix2 b q) k = ix3 b q k := by idx3
  rw [e]
  exact v51_at x0 x2 x6 x7 Wn hW b q k

/-- That sum, broadcast along the row. -/
theorem v54_at (b : Fin 4) (q : Fin 64) (n : Fin 512) :
    val_main_v54 (F := Ideal) x0 x2 x6 x7 (ix3 b q n)
      = ∑ n' : Fin 512, Ideal.exp (Ab x2 x6 x7 Wn b q n' - Cert.Spec.rowmax (Ab x2 x6 x7 Wn b) q) := by
  refine (val_main_v54_apply (F := Ideal) x0 x2 x6 x7 (ix3 b q n)).trans ?_
  refine (val_main_v53_apply (F := Ideal) x0 x2 x6 x7 _).trans ?_
  have e : idx_main_v53 (idx_main_v54 (ix3 b q n)) = ix2 b q := by idx2
  rw [e]
  exact v52_at x0 x2 x6 x7 Wn hW b q

/-- The softmax of the scores along a row. -/
theorem v55_at (b : Fin 4) (q : Fin 64) (n : Fin 512) :
    val_main_v55 (F := Ideal) x0 x2 x6 x7 (ix3 b q n) = Cert.Spec.soft (Ab x2 x6 x7 Wn b) q n := by
  refine (val_main_v55_apply (F := Ideal) x0 x2 x6 x7 (ix3 b q n)).trans ?_
  show Ideal.div (val_main_v51 (F := Ideal) x0 x2 x6 x7 (ix3 b q n)) (val_main_v54 (F := Ideal) x0 x2 x6 x7 (ix3 b q n)) = _
  rw [v51_at x0 x2 x6 x7 Wn hW b q n, v54_at x0 x2 x6 x7 Wn hW b q n]
  rfl

/-- The memory read-out: the softmax applied to the value projection. -/
theorem v56_at (b : Fin 4) (q : Fin 64) (h : Fin 1024) :
    val_main_v56 (F := Ideal) x0 x2 x6 x7 x8 (ix3 b q h)
      = Cert.Spec.mem (Cert.Spec.soft (Ab x2 x6 x7 Wn b)) (Cert.Spec.proj (Sb x2 Wn b) (Wf x8)) q h := by
  refine (val_main_v56_apply x0 x2 x6 x7 x8 (ix3 b q h)).trans ?_
  refine Finset.sum_congr rfl fun k _ => ?_
  have e1 : lidx_main_v56 (ix3 b q h) k = ix3 b q k := by idx3
  have e2 : ridx_main_v56 (ix3 b q h) k = ix3 b k h := by idx3
  rw [e1, e2, v55_at x0 x2 x6 x7 Wn hW b q k, v40_at x0 x2 x8 Wn hW b k h]

end Soft

/-- Entry `(b, q, h)` of the reference's memory read-out is `Spec.memOf` of the summary of batch element `b`'s windows
    `Wn b` (whatever they are: `hW`). -/
theorem v56_apply (x0 : (⟨S4x4096x1024, .f32⟩ : BufTy).Contents (Elt Ideal)) (x2 : (⟨S1024x16384, .f32⟩ : BufTy).Contents (Elt Ideal))
    (x6 : (⟨S64x1024, .f32⟩ : BufTy).Contents (Elt Ideal)) (x7 x8 : (⟨S1024x1024, .f32⟩ : BufTy).Contents (Elt Ideal))
    (Wn : Fin 4 → Fin 512 → Fin 16384 → EReal)
    (hW : ∀ (b : Fin 4) (n : Fin 512) (f : Fin 16384), val_main_v17 (F := Ideal) x0 (ix3 b n f) = Wn b n f)
    (b : Fin 4) (q : Fin 64) (h : Fin 1024) :
    val_main_v56 (F := Ideal) x0 x2 x6 x7 x8 (ix3 b q h)
      = Cert.Spec.memOf (fun n m => ∑ f : Fin 16384, Wn b n f * x2 (ix2 m f)) (fun h k => x7 (ix2 h k)) (fun h k => x8 (ix2 h k))
          (fun q h => x6 (ix2 q h)) q h := by
  exact v56_at x0 x2 x6 x7 x8 Wn hW b q h

end Cert.ReferenceIdeal.RefMem

end
-- ==== Proof.RefTail.lean ====
/-
  The reference's last stretch, at an entry: the normalisation of the memory read-out, the addition to the carried
  state and the second normalisation; each mean is a sum over the two inner axes of a batch element.
-/
import proofs.«424976_j2362232013133_4_alg».proof.Proof.RefRead
import proofs.«424976_j2362232013133_4_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.ReferenceIdeal.RefTail

open Idealize.ShloMosaic Idealize.ShloMosaic.TcCoe Idealize.ShloMosaic.ValueIdx Cert.ReferenceIdeal Cert.ReferenceIdeal.ReadP

/-- Dropping the two inner axes of an index of a [4, 64, 1024] array leaves the batch coordinate. -/
theorem drop_eq_iff (h' : S4x64x1024.ReducesTo [1, 2] S4) (i : S4x64x1024.Idx) (j : Fin 4) :
    h'.drop i = ix1 j ↔ (i 0 : Fin 4) = j := by
  constructor
  · intro e
    have e0 := congrFun e (0 : Fin 1)
    apply Fin.ext
    rw [← Shape.ReducesTo.drop_apply_val_of_eq h' i 0 0]
    exact congrArg Fin.val e0
  · intro e
    funext b
    match b with
    | ⟨0, _⟩ =>
      apply Fin.ext
      rw [Shape.ReducesTo.drop_apply_val_of_eq h' i ⟨0, by decide⟩ 0]
      exact congrArg Fin.val e

/-- The sum over the indices of a [4, 64, 1024] array that lie in batch element `j` is the double sum over the two
    inner coordinates. -/
theorem sum_filter_drop (h' : S4x64x1024.ReducesTo [1, 2] S4) (x : S4x64x1024.Idx → EReal) (j : Fin 4) :
    ∑ i ∈ Finset.univ.filter (fun i => h'.drop i = ix1 j), x i = ∑ q : Fin 64, ∑ h : Fin 1024, x (ix3 j q h) := by
  rw [← Fintype.sum_prod_type']
  refine Finset.sum_nbij' (fun i => ((i 1 : Fin 64), (i 2 : Fin 1024))) (fun p => ix3 j p.1 p.2) ?_ ?_ ?_ ?_ ?_
  · intro i _; exact Finset.mem_univ _
  · intro p _
    rw [Finset.mem_filter]
    exact ⟨Finset.mem_univ _, (drop_eq_iff h' _ j).2 rfl⟩
  · intro i hi
    rw [Finset.mem_filter] at hi
    have e := (drop_eq_iff h' i j).1 hi.2
    subst e
    exact (eq_ix3 i).symm
  · intro p _; rfl
  · intro i hi
    rw [Finset.mem_filter] at hi
    have e := (drop_eq_iff h' i j).1 hi.2
    subst e
    exact congrArg x (eq_ix3 i)

/-- The host's sum over the two inner axes of a [4, 64, 1024] array, from the initial value `init`, at batch element `j`. -/
theorem hostReduceAdd_inner (h' : S4x64x1024.ReducesTo [1, 2] S4) (x : S4x64x1024.Idx → EReal) (init : EReal) (j : Fin 4) :
    Ideal.hostReduceAdd h' x init (ix1 j) = init + ∑ q : Fin 64, ∑ h : Fin 1024, x (ix3 j q h) := by
  unfold Ideal.hostReduceAdd
  rw [sum_filter_drop]

/-! ### The index functions of the layout operations, at an index given by its coordinates -/

theorem idx59 (b : Fin 4) : idx_main_v59 (ix3 b (0 : Fin 1) (0 : Fin 1)) = ix1 b :=
  funext fun a => Fin.ext (by match a with | ⟨0, _⟩ => rfl)

theorem idx65 (b : Fin 4) (q : Fin 64) (h : Fin 1024) : idx_main_v65 (ix3 b q h) = ix3 b (0 : Fin 1) (0 : Fin 1) :=
  funext fun a => Fin.ext (by match a with | ⟨0, _⟩ => rfl | ⟨1, _⟩ => rfl | ⟨2, _⟩ => rfl)

theorem idx67 (q : Fin 64) (h : Fin 1024) : idx_main_v67 (ix3 (0 : Fin 1) q h) = ix2 q h :=
  funext fun a => Fin.ext (by match a with | ⟨0, _⟩ => rfl | ⟨1, _⟩ => rfl)

theorem idx68 (b : Fin 4) (q : Fin 64) (h : Fin 1024) : idx_main_v68 (ix3 b q h) = ix3 (0 : Fin 1) q h :=
  funext fun a => Fin.ext (by match a with | ⟨0, _⟩ => rfl | ⟨1, _⟩ => rfl | ⟨2, _⟩ => rfl)

theorem idx73 (b : Fin 4) : idx_main_v73 (ix3 b (0 : Fin 1) (0 : Fin 1)) = ix1 b :=
  funext fun a => Fin.ext (by match a with | ⟨0, _⟩ => rfl)

theorem idx79 (b : Fin 4) (q : Fin 64) (h : Fin 1024) : idx_main_v79 (ix3 b q h) = ix3 b (0 : Fin 1) (0 : Fin 1) :=
  funext fun a => Fin.ext (by match a with | ⟨0, _⟩ => rfl | ⟨1, _⟩ => rfl | ⟨2, _⟩ => rfl)

theorem idx81 (q : Fin 64) (h : Fin 1024) : idx_main_v81 (ix3 (0 : Fin 1) q h) = ix2 q h :=
  funext fun a => Fin.ext (by match a with | ⟨0, _⟩ => rfl | ⟨1, _⟩ => rfl)

theorem idx82 (b : Fin 4) (q : Fin 64) (h : Fin 1024) : idx_main_v82 (ix3 b q h) = ix3 (0 : Fin 1) q h :=
  funext fun a => Fin.ext (by match a with | ⟨0, _⟩ => rfl | ⟨1, _⟩ => rfl | ⟨2, _⟩ => rfl)

/-! ### The first normalisation -/

/-- The sum of the squares of batch element `b`'s read-out. -/
theorem v58_apply (x0 : (⟨S4x4096x1024, .f32⟩ : BufTy).Contents (Elt Ideal)) (x2 : (⟨S1024x16384, .f32⟩ : BufTy).Contents (Elt Ideal)) (x6 : (⟨S64x1024, .f32⟩ : BufTy).Contents (Elt Ideal)) (x7 x8 : (⟨S1024x1024, .f32⟩ : BufTy).Contents (Elt Ideal))
    (M : Fin 4 → Fin 64 → Fin 1024 → EReal)
    (hM : ∀ (b : Fin 4) (q : Fin 64) (h : Fin 1024), val_main_v56 (F := Ideal) x0 x2 x6 x7 x8 (ix3 b q h) = M b q h) (b : Fin 4) :
    val_main_v58 (F := Ideal) x0 x2 x6 x7 x8 (ix1 b) = ∑ q : Fin 64, ∑ h : Fin 1024, M b q h * M b q h := by
  unfold val_main_v58
  refine (hostReduceAdd_apply _ _ _ _ _).trans ?_
  refine (hostReduceAdd_inner _ _ _ b).trans ?_
  rw [val_main_cst_10_apply, Ideal.ofBits_def, Ideal.ofBits_zero_f32, zero_add]
  refine Finset.sum_congr rfl fun q _ => Finset.sum_congr rfl fun h _ => ?_
  rw [val_main_v57_apply, hM, Ideal.mulf_def]

/-- The reciprocal root of the mean square of batch element `b`'s read-out, at every entry of the element. -/
theorem v65_apply (x0 : (⟨S4x4096x1024, .f32⟩ : BufTy).Contents (Elt Ideal)) (x2 : (⟨S1024x16384, .f32⟩ : BufTy).Contents (Elt Ideal)) (x6 : (⟨S64x1024, .f32⟩ : BufTy).Contents (Elt Ideal)) (x7 x8 : (⟨S1024x1024, .f32⟩ : BufTy).Contents (Elt Ideal))
    (M : Fin 4 → Fin 64 → Fin 1024 → EReal)
    (hM : ∀ (b : Fin 4) (q : Fin 64) (h : Fin 1024), val_main_v56 (F := Ideal) x0 x2 x6 x7 x8 (ix3 b q h) = M b q h) (b : Fin 4) (q : Fin 64) (h : Fin 1024) :
    val_main_v65 (F := Ideal) x0 x2 x6 x7 x8 (ix3 b q h)
      = Ideal.rsqrt (Ideal.div (∑ q' : Fin 64, ∑ h' : Fin 1024, M b q' h' * M b q' h') Cert.Spec.CNT + Cert.Spec.EPS) := by
  rw [val_main_v65_apply, idx65, val_main_v64_apply, val_main_v63_apply, val_main_v61_apply, val_main_v59_apply, idx59,
    v58_apply x0 x2 x6 x7 x8 M hM b, val_main_v60_apply, val_main_cst_11_apply, val_main_v62_apply, val_main_cst_12_apply]
  rfl

/-- The first weight array at every batch element. -/
theorem v68_apply (x9 : (⟨S64x1024, .f32⟩ : BufTy).Contents (Elt Ideal)) (b : Fin 4) (q : Fin 64) (h : Fin 1024) :
    val_main_v68 (F := Ideal) x9 (ix3 b q h) = x9 (ix2 q h) := by
  rw [val_main_v68_apply, idx68, val_main_v67_apply, idx67]

/-- The normalised read-out. -/
theorem v69_apply (x0 : (⟨S4x4096x1024, .f32⟩ : BufTy).Contents (Elt Ideal)) (x2 : (⟨S1024x16384, .f32⟩ : BufTy).Contents (Elt Ideal)) (x6 : (⟨S64x1024, .f32⟩ : BufTy).Contents (Elt Ideal)) (x7 x8 : (⟨S1024x1024, .f32⟩ : BufTy).Contents (Elt Ideal)) (x9 : (⟨S64x1024, .f32⟩ : BufTy).Contents (Elt Ideal))
    (M : Fin 4 → Fin 64 → Fin 1024 → EReal)
    (hM : ∀ (b : Fin 4) (q : Fin 64) (h : Fin 1024), val_main_v56 (F := Ideal) x0 x2 x6 x7 x8 (ix3 b q h) = M b q h) (b : Fin 4) (q : Fin 64) (h : Fin 1024) :
    val_main_v69 (F := Ideal) x0 x2 x6 x7 x8 x9 (ix3 b q h) = Cert.Spec.rms (M b) (fun q h => x9 (ix2 q h)) q h := by
  rw [val_main_v69_apply, val_main_v66_apply, v65_apply x0 x2 x6 x7 x8 M hM b q h, v68_apply, hM]
  rfl

/-- The carried state plus the normalised read-out. -/
theorem v70_apply (x0 : (⟨S4x4096x1024, .f32⟩ : BufTy).Contents (Elt Ideal)) (x1 : (⟨S4x64x1024, .f32⟩ : BufTy).Contents (Elt Ideal)) (x2 : (⟨S1024x16384, .f32⟩ : BufTy).Contents (Elt Ideal)) (x6 : (⟨S64x1024, .f32⟩ : BufTy).Contents (Elt Ideal)) (x7 x8 : (⟨S1024x1024, .f32⟩ : BufTy).Contents (Elt Ideal)) (x9 : (⟨S64x1024, .f32⟩ : BufTy).Contents (Elt Ideal))
    (M : Fin 4 → Fin 64 → Fin 1024 → EReal)
    (hM : ∀ (b : Fin 4) (q : Fin 64) (h : Fin 1024), val_main_v56 (F := Ideal) x0 x2 x6 x7 x8 (ix3 b q h) = M b q h) (b : Fin 4) (q : Fin 64) (h : Fin 1024) :
    val_main_v70 (F := Ideal) x0 x1 x2 x6 x7 x8 x9 (ix3 b q h)
      = x1 (ix3 b q h) + Cert.Spec.rms (M b) (fun q h => x9 (ix2 q h)) q h := by
  rw [val_main_v70_apply, v69_apply x0 x2 x6 x7 x8 x9 M hM b q h]
  rfl

/-! ### The second normalisation, of the sum `A` just read -/

/-- The sum of the squares of batch element `b`'s sum. -/
theorem v72_apply (x0 : (⟨S4x4096x1024, .f32⟩ : BufTy).Contents (Elt Ideal)) (x1 : (⟨S4x64x1024, .f32⟩ : BufTy).Contents (Elt Ideal)) (x2 : (⟨S1024x16384, .f32⟩ : BufTy).Contents (Elt Ideal)) (x6 : (⟨S64x1024, .f32⟩ : BufTy).Contents (Elt Ideal)) (x7 x8 : (⟨S1024x1024, .f32⟩ : BufTy).Contents (Elt Ideal)) (x9 : (⟨S64x1024, .f32⟩ : BufTy).Contents (Elt Ideal))
    (A : Fin 4 → Fin 64 → Fin 1024 → EReal)
    (hA : ∀ (b : Fin 4) (q : Fin 64) (h : Fin 1024), val_main_v70 (F := Ideal) x0 x1 x2 x6 x7 x8 x9 (ix3 b q h) = A b q h) (b : Fin 4) :
    val_main_v72 (F := Ideal) x0 x1 x2 x6 x7 x8 x9 (ix1 b) = ∑ q : Fin 64, ∑ h : Fin 1024, A b q h * A b q h := by
  unfold val_main_v72
  refine (hostReduceAdd_apply _ _ _ _ _).trans ?_
  refine (hostReduceAdd_inner _ _ _ b).trans ?_
  rw [val_main_cst_13_apply, Ideal.ofBits_def, Ideal.ofBits_zero_f32, zero_add]
  refine Finset.sum_congr rfl fun q _ => Finset.sum_congr rfl fun h _ => ?_
  rw [val_main_v71_apply, hA, Ideal.mulf_def]

/-- The reciprocal root of the mean square of batch element `b`'s sum, at every entry of the element. -/
theorem v79_apply (x0 : (⟨S4x4096x1024, .f32⟩ : BufTy).Contents (Elt Ideal)) (x1 : (⟨S4x64x1024, .f32⟩ : BufTy).Contents (Elt Ideal)) (x2 : (⟨S1024x16384, .f32⟩ : BufTy).Contents (Elt Ideal)) (x6 : (⟨S64x1024, .f32⟩ : BufTy).Contents (Elt Ideal)) (x7 x8 : (⟨S1024x1024, .f32⟩ : BufTy).Contents (Elt Ideal)) (x9 : (⟨S64x1024, .f32⟩ : BufTy).Contents (Elt Ideal))
    (A : Fin 4 → Fin 64 → Fin 1024 → EReal)
    (hA : ∀ (b : Fin 4) (q : Fin 64) (h : Fin 1024), val_main_v70 (F := Ideal) x0 x1 x2 x6 x7 x8 x9 (ix3 b q h) = A b q h) (b : Fin 4) (q : Fin 64) (h : Fin 1024) :
    val_main_v79 (F := Ideal) x0 x1 x2 x6 x7 x8 x9 (ix3 b q h)
      = Ideal.rsqrt (Ideal.div (∑ q' : Fin 64, ∑ h' : Fin 1024, A b q' h' * A b q' h') Cert.Spec.CNT + Cert.Spec.EPS) := by
  rw [val_main_v79_apply, idx79, val_main_v78_apply, val_main_v77_apply, val_main_v75_apply, val_main_v73_apply, idx73,
    v72_apply x0 x1 x2 x6 x7 x8 x9 A hA b, val_main_v74_apply, val_main_cst_14_apply, val_main_v76_apply, val_main_cst_15_apply]
  rfl

/-- The second weight array at every batch element. -/
theorem v82_apply (x10 : (⟨S64x1024, .f32⟩ : BufTy).Contents (Elt Ideal)) (b : Fin 4) (q : Fin 64) (h : Fin 1024) :
    val_main_v82 (F := Ideal) x10 (ix3 b q h) = x10 (ix2 q h) := by
  rw [val_main_v82_apply, idx82, val_main_v81_apply, idx81]

/-- The normalised sum. -/
theorem v83_of (x0 : (⟨S4x4096x1024, .f32⟩ : BufTy).Contents (Elt Ideal)) (x1 : (⟨S4x64x1024, .f32⟩ : BufTy).Contents (Elt Ideal)) (x2 : (⟨S1024x16384, .f32⟩ : BufTy).Contents (Elt Ideal)) (x6 : (⟨S64x1024, .f32⟩ : BufTy).Contents (Elt Ideal)) (x7 x8 : (⟨S1024x1024, .f32⟩ : BufTy).Contents (Elt Ideal)) (x9 x10 : (⟨S64x1024, .f32⟩ : BufTy).Contents (Elt Ideal))
    (A : Fin 4 → Fin 64 → Fin 1024 → EReal)
    (hA : ∀ (b : Fin 4) (q : Fin 64) (h : Fin 1024), val_main_v70 (F := Ideal) x0 x1 x2 x6 x7 x8 x9 (ix3 b q h) = A b q h) (b : Fin 4) (q : Fin 64) (h : Fin 1024) :
    val_main_v83 (F := Ideal) x0 x1 x2 x6 x7 x8 x9 x10 (ix3 b q h) = Cert.Spec.rms (A b) (fun q h => x10 (ix2 q h)) q h := by
  rw [val_main_v83_apply, val_main_v80_apply, v79_apply x0 x1 x2 x6 x7 x8 x9 A hA b q h, v82_apply, hA]
  rfl

/-- Entry `(b, q, h)` of the reference's result is `Spec.upd` of batch element `b`'s memory read-out `M b` (whatever it
    is: `hM`), the carried state and the two weight arrays. -/
theorem v83_apply (x0 : (⟨S4x4096x1024, .f32⟩ : BufTy).Contents (Elt Ideal)) (x1 : (⟨S4x64x1024, .f32⟩ : BufTy).Contents (Elt Ideal))
    (x2 : (⟨S1024x16384, .f32⟩ : BufTy).Contents (Elt Ideal)) (x6 : (⟨S64x1024, .f32⟩ : BufTy).Contents (Elt Ideal))
    (x7 x8 : (⟨S1024x1024, .f32⟩ : BufTy).Contents (Elt Ideal)) (x9 x10 : (⟨S64x1024, .f32⟩ : BufTy).Contents (Elt Ideal))
    (M : Fin 4 → Fin 64 → Fin 1024 → EReal)
    (hM : ∀ (b : Fin 4) (q : Fin 64) (h : Fin 1024), val_main_v56 (F := Ideal) x0 x2 x6 x7 x8 (ix3 b q h) = M b q h)
    (b : Fin 4) (q : Fin 64) (h : Fin 1024) :
    val_main_v83 (F := Ideal) x0 x1 x2 x6 x7 x8 x9 x10 (ix3 b q h)
      = Cert.Spec.upd (M b) (fun q h => x1 (ix3 b q h)) (fun q h => x9 (ix2 q h)) (fun q h => x10 (ix2 q h)) q h := by
  refine (v83_of x0 x1 x2 x6 x7 x8 x9 x10
    (fun b q h => x1 (ix3 b q h) + Cert.Spec.rms (M b) (fun q h => x9 (ix2 q h)) q h)
    (fun b q h => v70_apply x0 x1 x2 x6 x7 x8 x9 M hM b q h) b q h).trans ?_
  rfl

end Cert.ReferenceIdeal.RefTail

end
-- ==== Proof.RefRun.lean ====
/-
  The reference's run: every weakly fair execution of its host program terminates with the result buffer at the last
  stage's value of the arguments, the arguments unchanged. The value is stated over the stages (one function per
  operation), so a value used several times is named once and never written out.
-/
import proofs.«424976_j2362232013133_4_alg».proof.Proof.RefRead
import proofs.«424976_j2362232013133_4_alg».proof.Proof.RefRunG
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- The composed term of the host program's result is the last stage's value of the arguments: the stages, unfolded in
    program order, are that term. -/
theorem val_main_v83_eq (m : (ℓ : Loc nD τ sig) → Buf (Elt F) ℓ) (c : Dev nD) :
    ValueP.res_main_v83 (F := F) m c = ReadP.val_main_v83 (F := F) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold ValueP.res_main_v83
  rfl

/-- On every device, from any memory with zero counters: every weakly fair execution of the host program terminates
    with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = ReadP.val_main_v83 (F := F) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (val_main_v83_eq m c), (h c).2⟩) (ValueP.run m ρ)

end Cert.ReferenceIdeal.RefRun

end
-- ==== Proof.lean ====
/-
  Equivalence over the extended reals of a fused window-summary / cross-attention memory update and its plain array
  reference. Per batch element both compute `Spec.out` (Proof/Spec.lean): the summary of 16-row windows taken every 8
  rows (rows past the sequence's end read zero), its key and value projections, the softmax of the scores of a
  constant query scaled by 2⁻⁵ = 1 / √1024, the weighted sum, and two root-mean-square normalisations around the
  addition to the carried state.

  The kernel contracts each window in two halves: the first eight rows are a row of the sequence viewed as 512 rows of
  8192 entries, the last eight the next such row, absent for the last window, where the reference's padding reads
  zero (`Spec.summK_flat`). Everything after the summary is the same chain of operations on both sides, read entry by
  entry: the kernel's on one batch element's blocks (Proof/KerSumm, KerSoft, KerTail, KerVal), the reference's on the
  whole arrays (Proof/RefWin, RefMem, RefTail). No step needs the inputs to be finite.
-/
import proofs.«424976_j2362232013133_4_alg».proof.Defs
import proofs.«424976_j2362232013133_4_alg».proof.Proof.Gen.Kernel.Frame
import proofs.«424976_j2362232013133_4_alg».proof.Proof.Gen.KernelIdeal.Frame
import proofs.«424976_j2362232013133_4_alg».proof.Proof.Gen.Kernel
import proofs.«424976_j2362232013133_4_alg».proof.Proof.Gen.KernelIdeal
import proofs.«424976_j2362232013133_4_alg».proof.Proof.Gen.ReferenceIdeal
import proofs.«424976_j2362232013133_4_alg».proof.Proof.Gen.Pre_finite_inputs
import proofs.«424976_j2362232013133_4_alg».proof.Proof.Whole
import proofs.«424976_j2362232013133_4_alg».proof.Proof.KerVal
import proofs.«424976_j2362232013133_4_alg».proof.Proof.RefWin
import proofs.«424976_j2362232013133_4_alg».proof.Proof.RefMem
import proofs.«424976_j2362232013133_4_alg».proof.Proof.RefTail
import proofs.«424976_j2362232013133_4_alg».proof.Proof.RefRun

noncomputable section

namespace Cert.Proof

open Idealize.ShloMosaic Idealize.ShloMosaic.ValueIdx Idealize.SL.Sem

/-- The reference's last stage is `Spec.whole` of its arguments: its windows are `Spec.win`, the chain from the windows
    to the memory read-out is `Spec.memOf` of their summary, and the last stretch is `Spec.upd`. -/
theorem ref_eq (x0 : (⟨Cert.ReferenceIdeal.S4x4096x1024, .f32⟩ : BufTy).Contents (Elt Ideal)) (x1 : (⟨Cert.ReferenceIdeal.S4x64x1024, .f32⟩ : BufTy).Contents (Elt Ideal))
    (x2 : (⟨Cert.ReferenceIdeal.S1024x16384, .f32⟩ : BufTy).Contents (Elt Ideal)) (x6 : (⟨Cert.ReferenceIdeal.S64x1024, .f32⟩ : BufTy).Contents (Elt Ideal))
    (x7 x8 : (⟨Cert.ReferenceIdeal.S1024x1024, .f32⟩ : BufTy).Contents (Elt Ideal)) (x9 x10 : (⟨Cert.ReferenceIdeal.S64x1024, .f32⟩ : BufTy).Contents (Elt Ideal)) :
    Cert.ReferenceIdeal.ReadP.val_main_v83 (F := Ideal) x0 x1 x2 x6 x7 x8 x9 x10 = Cert.Spec.whole x0 x1 x2 x7 x8 x6 x9 x10 := by
  funext i
  obtain ⟨b, q, h, rfl⟩ : ∃ (b : Fin 4) (q : Fin 64) (h : Fin 1024), i = ix3 b q h := ⟨i 0, i 1, i 2, eq_ix3 i⟩
  rw [Cert.Spec.whole_apply]
  refine (Cert.ReferenceIdeal.RefTail.v83_apply x0 x1 x2 x6 x7 x8 x9 x10
    (fun b => Cert.Spec.memOf (Cert.Spec.summ (fun r d => x0 (ix3 b r d)) (fun mm f => x2 (ix2 mm f))) (fun hh k => x7 (ix2 hh k))
      (fun hh k => x8 (ix2 hh k)) (fun qq hh => x6 (ix2 qq hh))) ?_ b q h).trans rfl
  intro b q h
  exact Cert.ReferenceIdeal.RefMem.v56_apply x0 x2 x6 x7 x8 (fun b => Cert.Spec.win (fun r d => x0 (ix3 b r d)))
    (Cert.ReferenceIdeal.RefWin.v17_apply x0) b q h

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments, the kernel's result array is `Spec.whole` of its arguments (Proof/KerVal)
    and the reference's last stage is `Spec.whole` of its own (`ref_eq`): the same array. -/
theorem algebraic : Cert.algebraic_KernelIdeal_ReferenceIdeal := by
  intro m ρ m' ρ' _ hagree
  refine ⟨fun c => Cert.KernelIdeal.KerVal.G m c, Cert.KernelIdeal.KerVal.run m ρ, ?_⟩
  refine (θ_run Cert.ReferenceIdeal.defs _ _).mono (fun _ h c => ⟨(h c).1.trans ?_, (h c).2⟩)
    (Cert.ReferenceIdeal.RefRun.run (F := Ideal) m' ρ')
  refine (ref_eq _ _ _ _ _ _ _ _).trans ?_
  obtain ⟨a0, a1, a2, -, -, -, a6, a7, a8, a9, a10⟩ := hagree c
  rw [a0, a1, a2, a6, a7, a8, a9, a10]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
